-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S1x1600000 : Shape := ⟨2, ![1, 1600000]⟩
abbrev S1600000 : Shape := ⟨1, ![1600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 50000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1 : Shape := ⟨1, ![1]⟩
abbrev S1x1 : Shape := ⟨2, ![1, 1]⟩
abbrev S1650000x128 : Shape := ⟨2, ![1650000, 128]⟩
abbrev S1x128 : Shape := ⟨2, ![1, 128]⟩
abbrev S50000x16 : Shape := ⟨2, ![50000, 16]⟩
abbrev S5000x16 : Shape := ⟨2, ![5000, 16]⟩
abbrev S1650000x16 : Shape := ⟨2, ![1650000, 16]⟩
abbrev S1x16 : Shape := ⟨2, ![1, 16]⟩

abbrev nBuf : Space → Nat
  | .hbm => 142
  | .vmem => 22
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x16, .f32⟩
  | 7 => ⟨S16, .f32⟩
  | 8 => ⟨S50000, .i32⟩
  | 9 => ⟨S1x1600000, .i32⟩
  | 10 => ⟨S1600000, .i32⟩
  | 11 => ⟨S1650000, .i32⟩
  | 12 => ⟨S1x1600000, .i32⟩
  | 13 => ⟨S1600000, .i32⟩
  | 14 => ⟨S1650000, .i32⟩
  | 15 => ⟨S_, .f32⟩
  | 16 => ⟨S1650000, .f32⟩
  | 17 => ⟨S_, .f32⟩
  | 18 => ⟨S50000, .f32⟩
  | 19 => ⟨S1650000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S1650000, .i32⟩
  | 31 => ⟨S1650000, .i1⟩
  | 32 => ⟨S_, .i32⟩
  | 33 => ⟨S1650000, .i32⟩
  | 34 => ⟨S1650000, .i32⟩
  | 35 => ⟨S1650000, .i32⟩
  | 36 => ⟨S1650000x1, .i32⟩
  | 37 => ⟨S1650000, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000, .f32⟩
  | 47 => ⟨S1650000, .f32⟩
  | 48 => ⟨S50000x128, .f32⟩
  | 49 => ⟨S_, .i32⟩
  | 50 => ⟨S1650000, .i32⟩
  | 51 => ⟨S1650000, .i1⟩
  | 52 => ⟨S_, .i32⟩
  | 53 => ⟨S1650000, .i32⟩
  | 54 => ⟨S1650000, .i32⟩
  | 55 => ⟨S1650000, .i32⟩
  | 56 => ⟨S1650000x1, .i32⟩
  | 57 => ⟨S1, .i32⟩
  | 58 => ⟨S_, .i32⟩
  | 59 => ⟨S1650000x1, .i32⟩
  | 60 => ⟨S1650000x1, .i1⟩
  | 61 => ⟨S1x1, .i32⟩
  | 62 => ⟨S1650000x1, .i32⟩
  | 63 => ⟨S1650000x1, .i1⟩
  | 64 => ⟨S1650000x1, .i1⟩
  | 65 => ⟨S_, .i1⟩
  | 66 => ⟨S1650000, .i1⟩
  | 67 => ⟨S1650000x128, .f32⟩
  | 68 => ⟨S1650000x128, .i1⟩
  | 69 => ⟨S_, .f32⟩
  | 70 => ⟨S1650000x128, .f32⟩
  | 71 => ⟨S1650000x128, .f32⟩
  | 72 => ⟨S1650000x1, .f32⟩
  | 73 => ⟨S1650000x128, .f32⟩
  | 74 => ⟨S1650000x128, .f32⟩
  | 75 => ⟨S_, .f32⟩
  | 76 => ⟨S50000x128, .f32⟩
  | 77 => ⟨S1650000x1, .i32⟩
  | 78 => ⟨S50000x128, .f32⟩
  | 79 => ⟨S50000x128, .f32⟩
  | 80 => ⟨S_, .i32⟩
  | 81 => ⟨S1650000, .i32⟩
  | 82 => ⟨S1650000, .i1⟩
  | 83 => ⟨S_, .i32⟩
  | 84 => ⟨S1650000, .i32⟩
  | 85 => ⟨S1650000, .i32⟩
  | 86 => ⟨S1650000, .i32⟩
  | 87 => ⟨S1650000x1, .i32⟩
  | 88 => ⟨S1, .i32⟩
  | 89 => ⟨S_, .i32⟩
  | 90 => ⟨S1650000x1, .i32⟩
  | 91 => ⟨S1650000x1, .i1⟩
  | 92 => ⟨S1x1, .i32⟩
  | 93 => ⟨S1650000x1, .i32⟩
  | 94 => ⟨S1650000x1, .i1⟩
  | 95 => ⟨S1650000x1, .i1⟩
  | 96 => ⟨S_, .i1⟩
  | 97 => ⟨S1650000, .i1⟩
  | 98 => ⟨S1650000x128, .f32⟩
  | 99 => ⟨S1650000x128, .i1⟩
  | 100 => ⟨S_, .f32⟩
  | 101 => ⟨S1650000x128, .f32⟩
  | 102 => ⟨S1650000x128, .f32⟩
  | 103 => ⟨S1650000x1, .f32⟩
  | 104 => ⟨S1650000x128, .f32⟩
  | 105 => ⟨S1650000x128, .f32⟩
  | 106 => ⟨S_, .f32⟩
  | 107 => ⟨S50000x128, .f32⟩
  | 108 => ⟨S1650000x1, .i32⟩
  | 109 => ⟨S50000x128, .f32⟩
  | 110 => ⟨S50000x16, .f32⟩
  | 111 => ⟨S_, .i32⟩
  | 112 => ⟨S1650000, .i32⟩
  | 113 => ⟨S1650000, .i1⟩
  | 114 => ⟨S_, .i32⟩
  | 115 => ⟨S1650000, .i32⟩
  | 116 => ⟨S1650000, .i32⟩
  | 117 => ⟨S1650000, .i32⟩
  | 118 => ⟨S1650000x1, .i32⟩
  | 119 => ⟨S1, .i32⟩
  | 120 => ⟨S_, .i32⟩
  | 121 => ⟨S1650000x1, .i32⟩
  | 122 => ⟨S1650000x1, .i1⟩
  | 123 => ⟨S1x1, .i32⟩
  | 124 => ⟨S1650000x1, .i32⟩
  | 125 => ⟨S1650000x1, .i1⟩
  | 126 => ⟨S1650000x1, .i1⟩
  | 127 => ⟨S_, .i1⟩
  | _ => ⟨S50000x128, .f32⟩

abbrev hbmTy0_1 (i : Nat) : BufTy := match i % 128 with
  | 0 => ⟨S1650000, .i1⟩
  | 1 => ⟨S1650000x16, .f32⟩
  | 2 => ⟨S1650000x16, .i1⟩
  | 3 => ⟨S_, .f32⟩
  | 4 => ⟨S1650000x16, .f32⟩
  | 5 => ⟨S1650000x16, .f32⟩
  | 6 => ⟨S1650000x1, .f32⟩
  | 7 => ⟨S1650000x16, .f32⟩
  | 8 => ⟨S1650000x16, .f32⟩
  | 9 => ⟨S_, .f32⟩
  | 10 => ⟨S50000x16, .f32⟩
  | 11 => ⟨S1650000x1, .i32⟩
  | 12 => ⟨S50000x16, .f32⟩
  | 13 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S128x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S16, .f32⟩
  | .local _ .vmem, ⟨20, _⟩ => ⟨S5000x16, .f32⟩
  | .local _ .vmem, ⟨21, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_6 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_cst_7 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_call3_c : Ref sig .tc := ⟨.hbm, 111, rfl⟩
abbrev main_call3_v0 : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_c_1 : Ref sig .tc := ⟨.hbm, 119, rfl⟩
abbrev main_call3_c_2 : Ref sig .tc := ⟨.hbm, 120, rfl⟩
abbrev main_call3_v6 : Ref sig .tc := ⟨.hbm, 121, rfl⟩
abbrev main_call3_v7 : Ref sig .tc := ⟨.hbm, 122, rfl⟩
abbrev main_call3_v8 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_c_3 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_call3_cst : Ref sig .tc := ⟨.hbm, 131, rfl⟩
abbrev main_call3_v15 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_cst_8 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1650000x1 : S_.BroadcastsInDim S1650000x1 (![] : Fin 0 → Fin S1650000x1.rank)
  bcast_S1_S1x1_1 : S1.BroadcastsInDim S1x1 (![1] : Fin 1 → Fin S1x1.rank)
  bcast_S1x1_S1650000x1_0_1 : S1x1.BroadcastsInDim S1650000x1 (![0, 1] : Fin 2 → Fin S1650000x1.rank)
  reducesTo_S1650000x1_S1650000_d1 : S1650000x1.ReducesTo [1] S1650000
  h_S_ : 0 < S_.numel
  bcast_S1650000_S1650000x128_0 : S1650000.BroadcastsInDim S1650000x128 (![0] : Fin 1 → Fin S1650000x128.rank)
  bcast_S_S1650000x128 : S_.BroadcastsInDim S1650000x128 (![] : Fin 0 → Fin S1650000x128.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1650000_S1650000x16_0 : S1650000.BroadcastsInDim S1650000x16 (![0] : Fin 1 → Fin S1650000x16.rank)
  bcast_S_S1650000x16 : S_.BroadcastsInDim S1650000x16 (![] : Fin 0 → Fin S1650000x16.rank)
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  shapeCasts_S5000x16_S5000x16 : S5000x16.ShapeCasts S5000x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x16_S5000x16_1_0_0_1_n_n_wf : DotDims.WF S5000x128 S128x16 S5000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x16.size a ≤ S128x16.size a
  hwx2_2 : ∀ i : grid2.Coords, EltTy.bits .f32 = 32 ∨ (Rect.block (s := S128x16) S128x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S50000x16.size a
  hwx2_3 : ∀ i : grid2.Coords, EltTy.bits .f32 = 32 ∨ (Rect.block (s := S50000x16) S5000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S50000x16.size a
  hwx3_0 : ∀ i : grid3.Coords, EltTy.bits .f32 = 32 ∨ (Rect.block (s := S50000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16.size a ≤ S16.size a
  hwx3_1 : ∀ i : grid3.Coords, EltTy.bits .f32 = 32 ∨ (Rect.block (s := S16) S16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S50000x16.size a
  hwx3_2 : ∀ i : grid3.Coords, EltTy.bits .f32 = 32 ∨ (Rect.block (s := S50000x16) S5000x16.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x16 : Shape := ⟨2, ![50000, 16]⟩
abbrev S1650000x16 : Shape := ⟨2, ![1650000, 16]⟩
abbrev S1x16 : Shape := ⟨2, ![1, 16]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S50000x128, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x128, .f32⟩
  | .hbm, ⟨58, _⟩ => ⟨S1650000x1, .f32⟩
  | .hbm, ⟨59, _⟩ => ⟨S1650000x128, .f32⟩
  | .hbm, ⟨60, _⟩ => ⟨S1650000x128, .f32⟩
  | .hbm, ⟨61, _⟩ => ⟨S_, .f32⟩
  | .hbm, ⟨62, _⟩ => ⟨S50000x128, .f32⟩
  | .hbm, ⟨63, _⟩ => ⟨S1650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S1650000, .i32⟩
  | .hbm, ⟨74, _⟩ => ⟨S1650000, .i1⟩
  | .hbm, ⟨75, _⟩ => ⟨S_, .i32⟩
  | .hbm, ⟨76, _⟩ => ⟨S1650000, .i32⟩
  | .hbm, ⟨77, _⟩ => ⟨S1650000, .i32⟩
  | .hbm, ⟨78, _⟩ => ⟨S1650000, .i32⟩
  | .hbm, ⟨79, _⟩ => ⟨S1650000x1, .i32⟩
  | .hbm, ⟨80, _⟩ => ⟨S1650000x128, .f32⟩
  | .hbm, ⟨81, _⟩ => ⟨S1650000x1, .f32⟩
  | .hbm, ⟨82, _⟩ => ⟨S1650000x128, .f32⟩
  | .hbm, ⟨83, _⟩ => ⟨S1650000x128, .f32⟩
  | .hbm, ⟨84, _⟩ => ⟨S_, .f32⟩
  | .hbm, ⟨85, _⟩ => ⟨S50000x128, .f32⟩
  | .hbm, ⟨86, _⟩ => ⟨S1650000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x16, .f32⟩
  | .hbm, ⟨95, _⟩ => ⟨S_, .i32⟩
  | .hbm, ⟨96, _⟩ => ⟨S1650000, .i32⟩
  | .hbm, ⟨97, _⟩ => ⟨S1650000, .i1⟩
  | .hbm, ⟨98, _⟩ => ⟨S_, .i32⟩
  | .hbm, ⟨99, _⟩ => ⟨S1650000, .i32⟩
  | .hbm, ⟨100, _⟩ => ⟨S1650000, .i32⟩
  | .hbm, ⟨101, _⟩ => ⟨S1650000, .i32⟩
  | .hbm, ⟨102, _⟩ => ⟨S1650000x1, .i32⟩
  | .hbm, ⟨103, _⟩ => ⟨S1650000x16, .f32⟩
  | .hbm, ⟨104, _⟩ => ⟨S1650000x1, .f32⟩
  | .hbm, ⟨105, _⟩ => ⟨S1650000x16, .f32⟩
  | .hbm, ⟨106, _⟩ => ⟨S1650000x16, .f32⟩
  | .hbm, ⟨107, _⟩ => ⟨S_, .f32⟩
  | .hbm, ⟨108, _⟩ => ⟨S50000x16, .f32⟩
  | .hbm, ⟨109, _⟩ => ⟨S1650000x1, .i32⟩
  | .hbm, ⟨110, _⟩ => ⟨S50000x16, .f32⟩
  | .hbm, ⟨111, _⟩ => ⟨S1x16, .f32⟩
  | .hbm, ⟨112, _⟩ => ⟨S50000x16, .f32⟩
  | .hbm, ⟨113, _⟩ => ⟨S50000x16, .f32⟩
  | .hbm, ⟨114, _⟩ => ⟨S_, .f32⟩
  | .hbm, ⟨115, _⟩ => ⟨S50000x16, .f32⟩
  | .hbm, ⟨116, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x16_S50000x16_1_0_0_1_n_n_wf : DotDims.WF S50000x128 S128x16 S50000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf

class Facts : Prop extends Facts₀ where

variable [Facts]
-- ==== Proof.Spec.lean ====
/-
  The network both programs compute, written once over the extended reals, index by index.

  A node-feature matrix is a function on the index pairs (node, feature). One graph-convolution
  layer is: a dense map (every row times a weight matrix), a neighbourhood aggregation, the addition
  of a bias row, and the rectifier x ↦ max x 0. The aggregation gathers rows along the edges, scales
  each by the edge's normalisation and adds them up at the edge's target: it is linear in nothing
  we use, so it enters here as an ARBITRARY function of the feature matrix. The two programs differ
  only in where they cut the chain (the kernel fuses "bias, rectifier, next dense map" into one
  tiled call) and in how they fetch a row whose index is outside the table.
-/
import Idealize.ShloMosaic.PureOps.Ideal
import Idealize.ShloMosaic.Lib.ValueIdx

noncomputable section

namespace Cert.Gcn

open Idealize.ShloMosaic Idealize.ShloMosaic.ValueIdx

/-- An `n × j` array of extended reals. -/
abbrev Mat (n j : Nat) : Type := (⟨2, ![n, j]⟩ : Shape).Idx → EReal
/-- A row of `j` extended reals. -/
abbrev Row (j : Nat) : Type := (⟨1, ![j]⟩ : Shape).Idx → EReal

/-- The dense map: entry (r, q) of `h · w` is the sum over `k` of `h[r, k] · w[k, q]`. -/
def lin {n K J : Nat} (h : Mat n K) (w : Mat K J) : Mat n J :=
  fun i => ∑ k : Fin K, h (ix2 (n0 := n) (n1 := K) (i 0) k) * w (ix2 (n0 := K) (n1 := J) k (i 1))

/-- Bias, then the rectifier: entry (r, q) is `max (a[r, q] + b[q]) 0`. -/
def act {n J : Nat} (a : Mat n J) (b : Row J) : Mat n J :=
  fun i => max (a i + b (ix1 (n := J) (i 1))) 0

/-- Three layers, 128 → 128 → 128 → 16 features on 50000 nodes, over an aggregation `A128` of
    128-feature matrices and an aggregation `A16` of 16-feature matrices. -/
def net (A128 : Mat 50000 128 → Mat 50000 128) (A16 : Mat 50000 16 → Mat 50000 16)
    (x : Mat 50000 128) (w1 : Mat 128 128) (b1 : Row 128) (w2 : Mat 128 128) (b2 : Row 128)
    (w3 : Mat 128 16) (b3 : Row 16) : Mat 50000 16 :=
  act (A16 (lin (act (A128 (lin (act (A128 (lin x w1)) b1) w2)) b2) w3)) b3

end Cert.Gcn

end
-- ==== Proof.RefStages.lean ====
import proofs.«417181_j18451179504149_1_alg».proof.Proof.RefRead
import proofs.«417181_j18451179504149_1_alg».proof.Proof.Spec

/-
  The reference program's result is the specification's three-layer composition.

  Each dense stage of the reference is the map `Gcn.lin`, each "add the bias row, then take the
  maximum with zero" pair is `Gcn.act`, and each gather / scale / scatter-add triple is one of the
  two aggregations below, kept as an opaque function of the feature matrix it is applied to.
-/

set_option maxRecDepth 16384
noncomputable section
namespace Cert.ReferenceIdeal.Bridge
open Cert.ReferenceIdeal Cert.ReferenceIdeal.Gen Cert.ReferenceIdeal.ReadP Idealize.ShloMosaic Idealize.ShloMosaic.TcCoe Idealize.SL.Sem

/-- The neighbourhood aggregation of a 128-feature matrix `h`, as the reference computes it from the edge list `x1`:
    gather the source rows, scale each by its edge's normalisation, add up at the targets. -/
def agg128 (x1 : IVec S2x1600000 32) (h : FVec Ideal S50000x128 .f32) :
    FVec Ideal S50000x128 .f32 :=
  Host.scatterAdd scatter_S50000x128_S1650000x1_S1650000x128_1_0_0_1 (val_main_v41 (F := Ideal)) (val_main_v42 (F := Ideal) x1)
    (mulf (Host.gather gather_S50000x128_S1650000x1_S1650000x128_1_0_n_n_0_1_1128 h (val_main_v36 (F := Ideal) x1)) (val_main_v39 (F := Ideal) x1))

/-- The same aggregation of a 16-feature matrix. -/
def agg16 (x1 : IVec S2x1600000 32) (h : FVec Ideal S50000x16 .f32) :
    FVec Ideal S50000x16 .f32 :=
  Host.scatterAdd scatter_S50000x16_S1650000x1_S1650000x16_1_0_0_1 (val_main_v77 (F := Ideal)) (val_main_v78 (F := Ideal) x1)
    (mulf (Host.gather gather_S50000x16_S1650000x1_S1650000x16_1_0_n_n_0_1_116 h (val_main_v72 (F := Ideal) x1)) (val_main_v75 (F := Ideal) x1))

/-! ## The bias rows and the zero matrices, read at an index -/

/-- Layer 1's bias, broadcast to a row and then down the nodes, is the bias at the column. -/
theorem bias1_apply (b : FVec Ideal S128 .f32) (i : S50000x128.Idx) :
    val_main_v45 (F := Ideal) b i = b (ValueIdx.ix1 (n := 128) (i 1)) := by
  rw [val_main_v45_apply, val_main_v44_apply]
  exact congrArg b (funext fun a => Fin.ext (by match a with | ⟨0, _⟩ => rfl))

/-- Layer 2's bias, the same. -/
theorem bias2_apply (b : FVec Ideal S128 .f32) (i : S50000x128.Idx) :
    val_main_v63 (F := Ideal) b i = b (ValueIdx.ix1 (n := 128) (i 1)) := by
  rw [val_main_v63_apply, val_main_v62_apply]
  exact congrArg b (funext fun a => Fin.ext (by match a with | ⟨0, _⟩ => rfl))

/-- Layer 3's bias, on 16 columns. -/
theorem bias3_apply (b : FVec Ideal S16 .f32) (i : S50000x16.Idx) :
    val_main_v81 (F := Ideal) b i = b (ValueIdx.ix1 (n := 16) (i 1)) := by
  rw [val_main_v81_apply, val_main_v80_apply]
  exact congrArg b (funext fun a => Fin.ext (by match a with | ⟨0, _⟩ => rfl))

/-- The first rectifier's second operand is zero everywhere. -/
theorem zero1_apply (i : S50000x128.Idx) : val_main_call1_v0 (F := Ideal) i = 0 := by
  rw [val_main_call1_v0_apply, val_main_call1_cst_apply, Ideal.ofBits_def, Ideal.ofBits_zero_f32]

/-- The second rectifier's second operand is zero everywhere. -/
theorem zero2_apply (i : S50000x128.Idx) : val_main_call2_v0 (F := Ideal) i = 0 := by
  rw [val_main_call2_v0_apply, val_main_call2_cst_apply, Ideal.ofBits_def, Ideal.ofBits_zero_f32]

/-- The third rectifier's second operand is zero everywhere. -/
theorem zero3_apply (i : S50000x16.Idx) : val_main_call3_v0 (F := Ideal) i = 0 := by
  rw [val_main_call3_v0_apply, val_main_call3_cst_apply, Ideal.ofBits_def, Ideal.ofBits_zero_f32]

/-! ## Bias and rectifier, over an arbitrary matrix -/

theorem act1 (a : FVec Ideal S50000x128 .f32) (b : FVec Ideal S128 .f32) :
    maximumf (addf a (val_main_v45 (F := Ideal) b)) (val_main_call1_v0 (F := Ideal)) = Cert.Gcn.act a b := by
  funext i
  show FloatOps.maximumf (FloatOps.addf (a i) (val_main_v45 (F := Ideal) b i)) (val_main_call1_v0 (F := Ideal) i) = _
  rw [bias1_apply, zero1_apply, Ideal.maximumf_def, Ideal.addf_def]
  rfl

theorem act2 (a : FVec Ideal S50000x128 .f32) (b : FVec Ideal S128 .f32) :
    maximumf (addf a (val_main_v63 (F := Ideal) b)) (val_main_call2_v0 (F := Ideal)) = Cert.Gcn.act a b := by
  funext i
  show FloatOps.maximumf (FloatOps.addf (a i) (val_main_v63 (F := Ideal) b i)) (val_main_call2_v0 (F := Ideal) i) = _
  rw [bias2_apply, zero2_apply, Ideal.maximumf_def, Ideal.addf_def]
  rfl

theorem act3 (a : FVec Ideal S50000x16 .f32) (b : FVec Ideal S16 .f32) :
    maximumf (addf a (val_main_v81 (F := Ideal) b)) (val_main_call3_v0 (F := Ideal)) = Cert.Gcn.act a b := by
  funext i
  show FloatOps.maximumf (FloatOps.addf (a i) (val_main_v81 (F := Ideal) b i)) (val_main_call3_v0 (F := Ideal) i) = _
  rw [bias3_apply, zero3_apply, Ideal.maximumf_def, Ideal.addf_def]
  rfl

/-! ## The seven stages -/

/-- (1) The first dense map. -/
theorem stage1 (x0 : FVec Ideal S50000x128 .f32) (x2 : FVec Ideal S128x128 .f32) :
    val_main_v30 (F := Ideal) x0 x2 = Cert.Gcn.lin x0 x2 := by
  funext i
  rw [val_main_v30_apply]
  unfold Cert.Gcn.lin
  refine Finset.sum_congr rfl fun k _ => ?_
  exact congrArg₂ (· * ·)
    (congrArg x0 (funext fun a => Fin.ext (by match a with | ⟨0, _⟩ => rfl | ⟨1, _⟩ => rfl)))
    (congrArg x2 (funext fun a => Fin.ext (by match a with | ⟨0, _⟩ => rfl | ⟨1, _⟩ => rfl)))

/-- (2) The first aggregation. -/
theorem stage2 (x0 : FVec Ideal S50000x128 .f32) (x1 : IVec S2x1600000 32) (x2 : FVec Ideal S128x128 .f32) :
    val_main_v43 (F := Ideal) x0 x1 x2 = agg128 x1 (val_main_v30 (F := Ideal) x0 x2) := by
  unfold val_main_v43 val_main_v40 val_main_v37 agg128
  rfl

/-- (3) Bias, rectifier and the second dense map. -/
theorem stage3 (x0 : FVec Ideal S50000x128 .f32) (x1 : IVec S2x1600000 32)
    (x2 : FVec Ideal S128x128 .f32) (x3 : FVec Ideal S128 .f32) (x4 : FVec Ideal S128x128 .f32) :
    val_main_v48 (F := Ideal) x0 x1 x2 x3 x4
      = Cert.Gcn.lin (Cert.Gcn.act (val_main_v43 (F := Ideal) x0 x1 x2) x3) x4 := by
  have h47 : val_main_v47 (F := Ideal) x0 x1 x2 x3 = Cert.Gcn.act (val_main_v43 (F := Ideal) x0 x1 x2) x3 := by
    unfold val_main_v47 val_main_v46
    exact act1 _ _
  funext i
  rw [val_main_v48_apply, h47]
  unfold Cert.Gcn.lin
  refine Finset.sum_congr rfl fun k _ => ?_
  exact congrArg₂ (· * ·)
    (congrArg _ (funext fun a => Fin.ext (by match a with | ⟨0, _⟩ => rfl | ⟨1, _⟩ => rfl)))
    (congrArg x4 (funext fun a => Fin.ext (by match a with | ⟨0, _⟩ => rfl | ⟨1, _⟩ => rfl)))

/-- The second aggregation's index, scale, zero and target operands are the first one's. -/
theorem v54_eq (x1 : IVec S2x1600000 32) : val_main_v54 (F := Ideal) x1 = val_main_v36 (F := Ideal) x1 := rfl
theorem v57_eq (x1 : IVec S2x1600000 32) : val_main_v57 (F := Ideal) x1 = val_main_v39 (F := Ideal) x1 := rfl
theorem v59_eq : val_main_v59 (F := Ideal) = val_main_v41 (F := Ideal) := rfl
theorem v60_eq (x1 : IVec S2x1600000 32) : val_main_v60 (F := Ideal) x1 = val_main_v42 (F := Ideal) x1 := rfl

/-- (4) The second aggregation. -/
theorem stage4 (x0 : FVec Ideal S50000x128 .f32) (x1 : IVec S2x1600000 32)
    (x2 : FVec Ideal S128x128 .f32) (x3 : FVec Ideal S128 .f32) (x4 : FVec Ideal S128x128 .f32) :
    val_main_v61 (F := Ideal) x0 x1 x2 x3 x4 = agg128 x1 (val_main_v48 (F := Ideal) x0 x1 x2 x3 x4) := by
  unfold val_main_v61 val_main_v58 val_main_v55 agg128
  rw [v54_eq, v57_eq, v59_eq, v60_eq]

/-- (5) Bias, rectifier and the third dense map. -/
theorem stage5 (x0 : FVec Ideal S50000x128 .f32) (x1 : IVec S2x1600000 32)
    (x2 : FVec Ideal S128x128 .f32) (x3 : FVec Ideal S128 .f32) (x4 : FVec Ideal S128x128 .f32)
    (x5 : FVec Ideal S128 .f32) (x6 : FVec Ideal S128x16 .f32) :
    val_main_v66 (F := Ideal) x0 x1 x2 x3 x4 x5 x6
      = Cert.Gcn.lin (Cert.Gcn.act (val_main_v61 (F := Ideal) x0 x1 x2 x3 x4) x5) x6 := by
  have h65 : val_main_v65 (F := Ideal) x0 x1 x2 x3 x4 x5 = Cert.Gcn.act (val_main_v61 (F := Ideal) x0 x1 x2 x3 x4) x5 := by
    unfold val_main_v65 val_main_v64
    exact act2 _ _
  funext i
  rw [val_main_v66_apply, h65]
  unfold Cert.Gcn.lin
  refine Finset.sum_congr rfl fun k _ => ?_
  exact congrArg₂ (· * ·)
    (congrArg _ (funext fun a => Fin.ext (by match a with | ⟨0, _⟩ => rfl | ⟨1, _⟩ => rfl)))
    (congrArg x6 (funext fun a => Fin.ext (by match a with | ⟨0, _⟩ => rfl | ⟨1, _⟩ => rfl)))

/-- (6) The third aggregation. -/
theorem stage6 (x0 : FVec Ideal S50000x128 .f32) (x1 : IVec S2x1600000 32)
    (x2 : FVec Ideal S128x128 .f32) (x3 : FVec Ideal S128 .f32) (x4 : FVec Ideal S128x128 .f32)
    (x5 : FVec Ideal S128 .f32) (x6 : FVec Ideal S128x16 .f32) :
    val_main_v79 (F := Ideal) x0 x1 x2 x3 x4 x5 x6 = agg16 x1 (val_main_v66 (F := Ideal) x0 x1 x2 x3 x4 x5 x6) := by
  unfold val_main_v79 val_main_v76 val_main_v73 agg16
  rfl

/-- (7) The last bias and rectifier. -/
theorem stage7 (x0 : FVec Ideal S50000x128 .f32) (x1 : IVec S2x1600000 32)
    (x2 : FVec Ideal S128x128 .f32) (x3 : FVec Ideal S128 .f32) (x4 : FVec Ideal S128x128 .f32)
    (x5 : FVec Ideal S128 .f32) (x6 : FVec Ideal S128x16 .f32) (x7 : FVec Ideal S16 .f32) :
    val_main_v83 (F := Ideal) x0 x1 x2 x3 x4 x5 x6 x7
      = Cert.Gcn.act (val_main_v79 (F := Ideal) x0 x1 x2 x3 x4 x5 x6) x7 := by
  unfold val_main_v83 val_main_v82
  exact act3 _ _

theorem ref_result (x0 : FVec Ideal S50000x128 .f32) (x1 : IVec S2x1600000 32)
    (x2 : FVec Ideal S128x128 .f32) (x3 : FVec Ideal S128 .f32)
    (x4 : FVec Ideal S128x128 .f32) (x5 : FVec Ideal S128 .f32)
    (x6 : FVec Ideal S128x16 .f32) (x7 : FVec Ideal S16 .f32) :
    val_main_v83 (F := Ideal) x0 x1 x2 x3 x4 x5 x6 x7
      = Cert.Gcn.net (agg128 x1) (agg16 x1) x0 x2 x3 x4 x5 x6 x7 := by
  rw [stage7, stage6, stage5, stage4, stage3, stage2, stage1]
  rfl

end Cert.ReferenceIdeal.Bridge
end
-- ==== Proof.Carry.lean ====
import proofs.«417181_j18451179504149_1_alg».proof.Proof.Gen.KernelIdeal.Frame
set_option maxRecDepth 16384
noncomputable section
namespace Cert.KernelIdeal.Bridge
open Cert.KernelIdeal Cert.KernelIdeal.Gen Idealize.ShloMosaic Idealize.ShloMosaic.TcCoe Idealize.SL.Sem
variable {F : FTy → Type} [FloatOps F]
variable (m : (ℓ : Loc nD τ sig) → Buf (Elt F) ℓ) (ρ : Dev nD → PrngReg)

/-- A host stretch leaves a buffer as it found it when the buffer is the result of none of the stretch's
    operations: every operation writes exactly its result, and the buffer differs from each result. -/
local macro "host_keeps " ops:ident : tactic =>
  `(tactic| (
    refine StableHlo.after_of_forall_not_mem _ _ (List.forall_iff_forall_mem.mp ?_)
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! The arguments: no host operation has an argument as its result, and a region that does not take an argument
    as one of its arrays leaves it alone, so at the entry of the region that reads it each argument still holds
    what the launch memory holds. -/

/- From the launch to region 0's entry (three host stretches). -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl

private theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

private theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl

private theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl

private theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = m ((c : Thread nD τ).loc main_arg6) := rfl

private theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by host_keeps hostOps0_2
    _ = W1 m ρ c (Proc.devRef .tc main_arg7) := by host_keeps hostOps0_1
    _ = W0 m ρ c (Proc.devRef .tc main_arg7) := by host_keeps hostOps0
    _ = m ((c : Thread nD τ).loc main_arg7) := rfl

/- On to region 1's entry: region 0 has none of these among its arrays, and the two host stretches after it write none. -/
theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := by host_keeps hostOps1_1
    _ = W4 m ρ c (Proc.devRef .tc main_arg3) := by host_keeps hostOps1
    _ = W3 m ρ c (Proc.devRef .tc main_arg3) := W4_of_ne m ρ c main_arg3 (by decide)
    _ = m ((c : Thread nD τ).loc main_arg3) := W3_arg3 m ρ c

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := by host_keeps hostOps1_1
    _ = W4 m ρ c (Proc.devRef .tc main_arg4) := by host_keeps hostOps1
    _ = W3 m ρ c (Proc.devRef .tc main_arg4) := W4_of_ne m ρ c main_arg4 (by decide)
    _ = m ((c : Thread nD τ).loc main_arg4) := W3_arg4 m ρ c

private theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := by host_keeps hostOps1_1
    _ = W4 m ρ c (Proc.devRef .tc main_arg5) := by host_keeps hostOps1
    _ = W3 m ρ c (Proc.devRef .tc main_arg5) := W4_of_ne m ρ c main_arg5 (by decide)
    _ = m ((c : Thread nD τ).loc main_arg5) := W3_arg5 m ρ c

private theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := by host_keeps hostOps1_1
    _ = W4 m ρ c (Proc.devRef .tc main_arg6) := by host_keeps hostOps1
    _ = W3 m ρ c (Proc.devRef .tc main_arg6) := W4_of_ne m ρ c main_arg6 (by decide)
    _ = m ((c : Thread nD τ).loc main_arg6) := W3_arg6 m ρ c

private theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := by host_keeps hostOps1_1
    _ = W4 m ρ c (Proc.devRef .tc main_arg7) := by host_keeps hostOps1
    _ = W3 m ρ c (Proc.devRef .tc main_arg7) := W4_of_ne m ρ c main_arg7 (by decide)
    _ = m ((c : Thread nD τ).loc main_arg7) := W3_arg7 m ρ c

/- On to region 2's entry: the same across region 1 and its two host stretches. -/
theorem W9_arg5 (c : Dev nD) : W9 m ρ c (Proc.devRef .tc main_arg5) = m ((c : Thread nD τ).loc main_arg5) :=
  calc W9 m ρ c (Proc.devRef .tc main_arg5)
    _ = W8 m ρ c (Proc.devRef .tc main_arg5) := by host_keeps hostOps2_1
    _ = W7 m ρ c (Proc.devRef .tc main_arg5) := by host_keeps hostOps2
    _ = W6 m ρ c (Proc.devRef .tc main_arg5) := W7_of_ne m ρ c main_arg5 (by decide)
    _ = m ((c : Thread nD τ).loc main_arg5) := W6_arg5 m ρ c

theorem W9_arg6 (c : Dev nD) : W9 m ρ c (Proc.devRef .tc main_arg6) = m ((c : Thread nD τ).loc main_arg6) :=
  calc W9 m ρ c (Proc.devRef .tc main_arg6)
    _ = W8 m ρ c (Proc.devRef .tc main_arg6) := by host_keeps hostOps2_1
    _ = W7 m ρ c (Proc.devRef .tc main_arg6) := by host_keeps hostOps2
    _ = W6 m ρ c (Proc.devRef .tc main_arg6) := W7_of_ne m ρ c main_arg6 (by decide)
    _ = m ((c : Thread nD τ).loc main_arg6) := W6_arg6 m ρ c

private theorem W9_arg7 (c : Dev nD) : W9 m ρ c (Proc.devRef .tc main_arg7) = m ((c : Thread nD τ).loc main_arg7) :=
  calc W9 m ρ c (Proc.devRef .tc main_arg7)
    _ = W8 m ρ c (Proc.devRef .tc main_arg7) := by host_keeps hostOps2_1
    _ = W7 m ρ c (Proc.devRef .tc main_arg7) := by host_keeps hostOps2
    _ = W6 m ρ c (Proc.devRef .tc main_arg7) := W7_of_ne m ρ c main_arg7 (by decide)
    _ = m ((c : Thread nD τ).loc main_arg7) := W6_arg7 m ρ c

/- On to region 3's entry: the same across region 2 and its two host stretches. -/
theorem W12_arg7 (c : Dev nD) : W12 m ρ c (Proc.devRef .tc main_arg7) = m ((c : Thread nD τ).loc main_arg7) :=
  calc W12 m ρ c (Proc.devRef .tc main_arg7)
    _ = W11 m ρ c (Proc.devRef .tc main_arg7) := by host_keeps hostOps3_1
    _ = W10 m ρ c (Proc.devRef .tc main_arg7) := by host_keeps hostOps3
    _ = W9 m ρ c (Proc.devRef .tc main_arg7) := W10_of_ne m ρ c main_arg7 (by decide)
    _ = m ((c : Thread nD τ).loc main_arg7) := W9_arg7 m ρ c

/-! The edge sources and targets (with the self-loops appended) and the per-edge normalisation are computed before
    region 0 and never again: no region has one of them among its arrays and no later host operation has one as
    its result, so at the exits of regions 0, 1 and 2 they hold what they held at region 0's entry. -/

/- Across region 0. -/
theorem W4_v3 (c : Dev nD) : W4 m ρ c (Proc.devRef .tc main_v3) = W3 m ρ c (Proc.devRef .tc main_v3) :=
  W4_of_ne m ρ c main_v3 (by decide)

theorem W4_v6 (c : Dev nD) : W4 m ρ c (Proc.devRef .tc main_v6) = W3 m ρ c (Proc.devRef .tc main_v6) :=
  W4_of_ne m ρ c main_v6 (by decide)

theorem W4_v29 (c : Dev nD) : W4 m ρ c (Proc.devRef .tc main_v29) = W3 m ρ c (Proc.devRef .tc main_v29) :=
  W4_of_ne m ρ c main_v29 (by decide)

/- Across the two host stretches after region 0 and across region 1. -/
theorem W7_v3 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := by host_keeps hostOps1_1
    _ = W4 m ρ c (Proc.devRef .tc main_v3) := by host_keeps hostOps1
    _ = W3 m ρ c (Proc.devRef .tc main_v3) := W4_v3 m ρ c

theorem W7_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := by host_keeps hostOps1_1
    _ = W4 m ρ c (Proc.devRef .tc main_v6) := by host_keeps hostOps1
    _ = W3 m ρ c (Proc.devRef .tc main_v6) := W4_v6 m ρ c

theorem W7_v29 (c : Dev nD) : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := by host_keeps hostOps1_1
    _ = W4 m ρ c (Proc.devRef .tc main_v29) := by host_keeps hostOps1
    _ = W3 m ρ c (Proc.devRef .tc main_v29) := W4_v29 m ρ c

/- Across the two host stretches after region 1 and across region 2. -/
theorem W10_v3 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keeps hostOps2_1
    _ = W7 m ρ c (Proc.devRef .tc main_v3) := by host_keeps hostOps2
    _ = W3 m ρ c (Proc.devRef .tc main_v3) := W7_v3 m ρ c

theorem W10_v6 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by host_keeps hostOps2_1
    _ = W7 m ρ c (Proc.devRef .tc main_v6) := by host_keeps hostOps2
    _ = W3 m ρ c (Proc.devRef .tc main_v6) := W7_v6 m ρ c

theorem W10_v29 (c : Dev nD) : W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := by host_keeps hostOps2_1
    _ = W7 m ρ c (Proc.devRef .tc main_v29) := by host_keeps hostOps2
    _ = W3 m ρ c (Proc.devRef .tc main_v29) := W7_v29 m ρ c

end Cert.KernelIdeal.Bridge
end
-- ==== Proof.KIdx.lean ====
/-
  The irregular part of the kernel's program, named: how an edge list becomes row indices, how a row is
  fetched, and the aggregation built from them.

  The edge list is an integer array of two rows, sources and targets, of 1 600 000 edges; every node gets a
  self-loop, so both rows are extended by 0, 1, …, 49999. An index is first wrapped (a negative index counts
  from the end of the table: `i < 0 ↦ i + 50000`). The kernel's program then fetches row `i` of a feature
  matrix in the "fill" way: where the wrapped index lies in [0, 49999] it reads the row (the gather clamps,
  which changes nothing there), and elsewhere it returns a row of one fixed not-a-number word. The
  aggregation scales the fetched rows by the per-edge normalisation and adds each into its target's row.
-/
import proofs.«417181_j18451179504149_1_alg».proof.KernelIdeal
import proofs.«417181_j18451179504149_1_alg».proof.Proof.Gen.KernelIdeal

noncomputable section

namespace Cert.KernelIdeal.Bridge

open Cert.KernelIdeal Cert.KernelIdeal.Gen Idealize.ShloMosaic

variable {F : FTy → Type} [FloatOps F]

/-- Contents carried to a typed buffer and back are unchanged (the transport is along an equation of types). -/
theorem ofBuf_toBuf {T : BufTy} (x : StableHlo.TRef sig T) (v : T.Contents (Elt F)) : x.ofBuf (x.toBuf v) = v := by
  obtain ⟨r, rfl, _, _⟩ := x; rfl

/-- Row `r` (0 the sources, 1 the targets) of the edge list, followed by the self-loops 0 … 49999. -/
def edgeRow0 (x1 : IVec S2x1600000 32) : IVec S1650000 32 :=
  concatenate S1650000 0 [⟨S1600000, shapeCast S1600000 (extractStridedSlice S1x1600000 ![0, 0] x1 slices_S2x1600000_S1x1600000_0_0) shapeCasts_S1x1600000_S1600000⟩,
    ⟨S50000, iotaInDim S50000 32 0⟩] concatenates_S1600000_S50000_S1650000_d0

/-- The index wrapped: a negative index counts from the end of a table of 50000 rows. One column. -/
def wrapIdx (row : IVec S1650000 32) : IVec S1650000x1 32 :=
  broadcastInDim S1650000x1 ![0] bcast_S1650000_S1650000x1_0
    (select (cmpi .slt row (broadcastInDim S1650000 ![] bcast_S_S1650000 (constantI S_ 32 0#32)))
      (addi row (broadcastInDim S1650000 ![] bcast_S_S1650000 (constantI S_ 32 50000#32))) row)

/-- One bit per edge: the wrapped index lies in [0, 49999]. -/
def inRange (row : IVec S1650000 32) : IVec S1650000 1 :=
  Host.reduce IntOp.andi
    (andi (cmpi .sge (wrapIdx row) (broadcastInDim S1650000x1 ![] bcast_S_S1650000x1 (constantI S_ 32 0#32)))
      (cmpi .sle (wrapIdx row)
        (broadcastInDim S1650000x1 ![0, 1] bcast_S1x1_S1650000x1_0_1 (broadcastInDim S1x1 ![1] bcast_S1_S1x1_1 (constantI S1 32 49999#32)))))
    (constantI S_ 1 1#1) reducesTo_S1650000x1_S1650000_d1 h_S_

/-- Rows of a 128-feature matrix fetched the "fill" way. -/
def take128 (h : FVec F S50000x128 .f32) (row : IVec S1650000 32) : FVec F S1650000x128 .f32 :=
  select (broadcastInDim S1650000x128 ![0] bcast_S1650000_S1650000x128_0 (inRange row))
    (Host.gather gather_S50000x128_S1650000x1_S1650000x128_1_0_n_n_0_1_1128 h (wrapIdx row))
    (broadcastInDim S1650000x128 ![] bcast_S_S1650000x128 (constant S_ .f32 0x7FC00000#32))

/-- Rows of a 16-feature matrix fetched the "fill" way. -/
def take16 (h : FVec F S50000x16 .f32) (row : IVec S1650000 32) : FVec F S1650000x16 .f32 :=
  select (broadcastInDim S1650000x16 ![0] bcast_S1650000_S1650000x16_0 (inRange row))
    (Host.gather gather_S50000x16_S1650000x1_S1650000x16_1_0_n_n_0_1_116 h (wrapIdx row))
    (broadcastInDim S1650000x16 ![] bcast_S_S1650000x16 (constant S_ .f32 0x7FC00000#32))

/-- The aggregation of a 128-feature matrix: fetch the source rows, scale by the edge's normalisation, add at the targets. -/
def aggK128 (row col : IVec S1650000 32) (nrm : FVec F S1650000 .f32) (h : FVec F S50000x128 .f32) : FVec F S50000x128 .f32 :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 col)
    (mulf (take128 h row)
      (broadcastInDim S1650000x128 ![0, 1] bcast_S1650000x1_S1650000x128_0_1 (broadcastInDim S1650000x1 ![0] bcast_S1650000_S1650000x1_0 nrm)))

/-- The aggregation of a 16-feature matrix. -/
def aggK16 (row col : IVec S1650000 32) (nrm : FVec F S1650000 .f32) (h : FVec F S50000x16 .f32) : FVec F S50000x16 .f32 :=
  Host.scatterAdd scatter_S50000x16_S1650000x1_S1650000x16_1_0_0_1
    (broadcastInDim S50000x16 ![] bcast_S_S50000x16 (constant S_ .f32 0x00000000#32))
    (broadcastInDim S1650000x1 ![0] bcast_S1650000_S1650000x1_0 col)
    (mulf (take16 h row)
      (broadcastInDim S1650000x16 ![0, 1] bcast_S1650000x1_S1650000x16_0_1 (broadcastInDim S1650000x1 ![0] bcast_S1650000_S1650000x1_0 nrm)))

end Cert.KernelIdeal.Bridge

end
-- ==== Proof.KAgg1.lean ====
/-
  The host stretch before the kernel program's tiled call number 1, read as a value.

  Between two tiled calls the program fetches the source rows of the preceding call's output (the "fill"
  fetch), scales them by the normalisation and adds them up at the targets: the stretch's result is the
  aggregation `aggK128` of four buffers as the stretch finds them — the two extended index lists, the
  normalisation, and the preceding call's output. The fetch is a function of its own in the program, whose
  values travel through typed buffers: carried there and back they are unchanged, and where a buffer's
  type is the value's the transport is the identity.
-/
import proofs.«417181_j18451179504149_1_alg».proof.Proof.Gen.KernelIdeal.Frame
import proofs.«417181_j18451179504149_1_alg».proof.Proof.KIdx
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
theorem W6_v37 (c : Dev nD) :
    W6 m ρ c (Proc.devRef .tc main_v37)
      = aggK128 (W4 m ρ c (Proc.devRef .tc main_v3)) (W4 m ρ c (Proc.devRef .tc main_v6))
          (W4 m ρ c (Proc.devRef .tc main_v29)) (W4 m ρ c (Proc.devRef .tc main_v30)) := by
  dsimp only [W6, W5, hostOps1_1, hostOps1]
  after_results_simp
  simp only [ofBuf_toBuf]
  rw [show ∀ v : (⟨S1650000x128, .f32⟩ : BufTy).Contents (Elt F),
        (TRef.of main_v31 : TRef sig ⟨S1650000x128, .f32⟩).toBuf v = v from fun _ => rfl,
    show (TRef.of main_v3 : TRef sig ⟨S1650000, .i32⟩).ofBuf (W4 m ρ c (Proc.devRef .tc main_v3))
        = W4 m ρ c (Proc.devRef .tc main_v3) from rfl,
    show (TRef.of main_v30 : TRef sig ⟨S50000x128, .f32⟩).ofBuf (W4 m ρ c (Proc.devRef .tc main_v30))
        = W4 m ρ c (Proc.devRef .tc main_v30) from rfl]
  rfl

end Cert.KernelIdeal.Bridge

end
-- ==== Proof.KAgg2.lean ====
/-
  The host stretch before the kernel program's tiled call number 2, read as a value.

  Between two tiled calls the program fetches the source rows of the preceding call's output (the "fill"
  fetch), scales them by the normalisation and adds them up at the targets: the stretch's result is the
  aggregation `aggK128` of four buffers as the stretch finds them — the two extended index lists, the
  normalisation, and the preceding call's output. The fetch is a function of its own in the program, whose
  values travel through typed buffers: carried there and back they are unchanged, and where a buffer's
  type is the value's the transport is the identity.
-/
import proofs.«417181_j18451179504149_1_alg».proof.Proof.Gen.KernelIdeal.Frame
import proofs.«417181_j18451179504149_1_alg».proof.Proof.KIdx
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
theorem W9_v45 (c : Dev nD) :
    W9 m ρ c (Proc.devRef .tc main_v45)
      = aggK128 (W7 m ρ c (Proc.devRef .tc main_v3)) (W7 m ρ c (Proc.devRef .tc main_v6))
          (W7 m ρ c (Proc.devRef .tc main_v29)) (W7 m ρ c (Proc.devRef .tc main_v38)) := by
  dsimp only [W9, W8, hostOps2_1, hostOps2]
  after_results_simp
  simp only [ofBuf_toBuf]
  rw [show ∀ v : (⟨S1650000x128, .f32⟩ : BufTy).Contents (Elt F),
        (TRef.of main_v39 : TRef sig ⟨S1650000x128, .f32⟩).toBuf v = v from fun _ => rfl,
    show (TRef.of main_v3 : TRef sig ⟨S1650000, .i32⟩).ofBuf (W7 m ρ c (Proc.devRef .tc main_v3))
        = W7 m ρ c (Proc.devRef .tc main_v3) from rfl,
    show (TRef.of main_v38 : TRef sig ⟨S50000x128, .f32⟩).ofBuf (W7 m ρ c (Proc.devRef .tc main_v38))
        = W7 m ρ c (Proc.devRef .tc main_v38) from rfl]
  rfl

end Cert.KernelIdeal.Bridge

end
-- ==== Proof.KAgg3.lean ====
/-
  The host stretch before the kernel program's tiled call number 3, read as a value.

  Between two tiled calls the program fetches the source rows of the preceding call's output (the "fill"
  fetch), scales them by the normalisation and adds them up at the targets: the stretch's result is the
  aggregation `aggK16` of four buffers as the stretch finds them — the two extended index lists, the
  normalisation, and the preceding call's output. The fetch is a function of its own in the program, whose
  values travel through typed buffers: carried there and back they are unchanged, and where a buffer's
  type is the value's the transport is the identity.
-/
import proofs.«417181_j18451179504149_1_alg».proof.Proof.Gen.KernelIdeal.Frame
import proofs.«417181_j18451179504149_1_alg».proof.Proof.KIdx
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
theorem W12_v53 (c : Dev nD) :
    W12 m ρ c (Proc.devRef .tc main_v53)
      = aggK16 (W10 m ρ c (Proc.devRef .tc main_v3)) (W10 m ρ c (Proc.devRef .tc main_v6))
          (W10 m ρ c (Proc.devRef .tc main_v29)) (W10 m ρ c (Proc.devRef .tc main_v46)) := by
  dsimp only [W12, W11, hostOps3_1, hostOps3]
  after_results_simp
  simp only [ofBuf_toBuf]
  rw [show ∀ v : (⟨S1650000x16, .f32⟩ : BufTy).Contents (Elt F),
        (TRef.of main_v47 : TRef sig ⟨S1650000x16, .f32⟩).toBuf v = v from fun _ => rfl,
    show (TRef.of main_v3 : TRef sig ⟨S1650000, .i32⟩).ofBuf (W10 m ρ c (Proc.devRef .tc main_v3))
        = W10 m ρ c (Proc.devRef .tc main_v3) from rfl,
    show (TRef.of main_v46 : TRef sig ⟨S50000x16, .f32⟩).ofBuf (W10 m ρ c (Proc.devRef .tc main_v46))
        = W10 m ρ c (Proc.devRef .tc main_v46) from rfl]
  rfl

end Cert.KernelIdeal.Bridge

end
-- ==== Proof.KRegion0.lean ====
/-
  The first tiled call of the network computes the dense map of the node features by the first weight
  matrix: its output array, entry (r, q), is the sum over k of x[r, k] * w[k, q].

  The call walks ten row blocks of 5000 rows. At each block it multiplies the block of x by the whole of w
  (both first narrowed to a shorter float format, which on the extended reals changes nothing) into a zero
  accumulator and stores the product as the block of the output. So: one block's product at an entry is the
  sum above over the block's rows; row p of block t is row 5000 t + p of the array; and the ten blocks cover
  the 50000 rows, row r lying in block r / 5000.
-/
import proofs.«417181_j18451179504149_1_alg».proof.Proof.Gen.KernelIdeal.Frame
import proofs.«417181_j18451179504149_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## One block's product at an entry -/

/- The product's operand indices at output entry i and contraction index q, axis by axis: the left operand is read at
   (row of i, q), the right operand at (q, column of i). -/

theorem dense0_lhsIdx_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dense0_lhsIdx_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dense0_rhsIdx_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dense0_rhsIdx_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of one block's product: the sum over k of x[p, k] * w[k, q]. -/
theorem dense0_block_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dense0_lhsIdx_row _ _
    | ⟨1, _⟩ => exact (dense0_lhsIdx_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dense0_rhsIdx_row _ _).trans hk
    | ⟨1, _⟩ => exact dense0_rhsIdx_col _ _)
  rw [el, er]
  rfl

/-! ## One block of the output is the matching rows of the whole product -/

/-- If row p of the block x is row r of the array X, and w is W, entry (p, q) of the block's product is entry (r, q) of X · W. -/
theorem dense0_entry_of_rows (X : Cert.Gcn.Mat 50000 128) (W : Cert.Gcn.Mat 128 128)
    (x : Vec Ideal S5000x128 .f32) (w : Vec Ideal S128x128 .f32) (r : Fin 50000) (p : Fin 5000) (q : Fin 128)
    (hx : ∀ k : Fin 128, x (ix2 p k) = X (ix2 r k)) (hw : ∀ k : Fin 128, w (ix2 k q) = W (ix2 k q)) :
    k0_pay1 (F := Ideal) x w (ix2 p q) = Cert.Gcn.lin (n := 50000) (K := 128) (J := 128) X W (ix2 r q) := by
  refine (dense0_block_apply x w p q).trans ?_
  unfold Cert.Gcn.lin
  exact Finset.sum_congr rfl fun k _ => by rw [hx k, hw k]

theorem dense0_zero_off : (![0, 0] : Fin 2 → Nat) = fun _ => 0 := funext fun a => by fin_cases a <;> rfl

/-- The block indices over the grid: the row blocks of x and of the output are at the point's number; w is fetched whole. -/
theorem dense0_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of X · W. -/
theorem dense0_flushed (c : Dev nD) (t : Fin cfg0.N) :
    (dat0 (F := Ideal) V c).flushed 2 t = ((cfg0.win 2).blk t).view.read (Elt Ideal)
      (Cert.Gcn.lin (n := 50000) (K := 128) (J := 128) (V c main_arg0) (V c main_arg2)) := by
  show (cfg0.win 2).cut (grid0.coords t) ((dat0 (F := Ideal) V c).after 2 t) = _
  rw [after0_2]
  unfold out0_2
  rw [View.canon_unit_zero dense0_zero_off]
  simp only [View.ld_unit_zero (S := S5000x128) dense0_zero_off, View.ld_unit_zero (S := S128x128) dense0_zero_off]
  obtain ⟨e00, e01, e10, e11, e20, e21⟩ := dense0_index_facts t
  have ht : t.val < 10 := by have := t.isLt; have hN : cfg0.N = 10 := N_0; omega
  funext j
  obtain ⟨p, q, rfl⟩ : ∃ (p : Fin 5000) (q : Fin 128), j = ix2 p q := ⟨j 0, j 1, eq_ix2 j⟩
  have hp := p.isLt
  have hq := q.isLt
  have hemb : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (F := Ideal) (iblk0 V c 0 t) (iblk0 V c 1 t) (ix2 p q)
    = Cert.Gcn.lin (n := 50000) (K := 128) (J := 128) (V c main_arg0) (V c main_arg2) (((cfg0.win 2).blk t).view.emb (ix2 p q))
  rw [hemb]
  refine dense0_entry_of_rows (V c main_arg0) (V c main_arg2) (iblk0 V c 0 t) (iblk0 V c 1 t) ⟨t.val * 5000 + p.val, by omega⟩ p q (fun k => ?_) (fun k => ?_)
  · show V c main_arg0 (((cfg0.win 0).blk t).view.emb (ix2 p k)) = V c main_arg0 (ix2 (⟨t.val * 5000 + p.val, by omega⟩ : Fin 50000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg2 (((cfg0.win 1).blk t).view.emb (ix2 k q)) = V c main_arg2 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-! ## The blocks cover the array -/

/-- An index of the output array is in point t's block iff each coordinate is in the block's range on its axis. -/
theorem dense0_mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r is in the block of point r / 5000. -/
theorem dense0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by omega⟩, flush0_2 _, ?_⟩
  obtain ⟨-, -, -, -, e20, e21⟩ := dense0_index_facts ⟨(i 0).val / 5000, by omega⟩
  rw [dense0_mem_block]
  intro a
  match a with
  | ⟨0, _⟩ =>
    show win0_2.index ⟨(i 0).val / 5000, _⟩ (0 : Fin 2) * 5000 ≤ (i 0).val ∧ (i 0).val < win0_2.index ⟨(i 0).val / 5000, _⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, _⟩ (1 : Fin 2) * 128 ≤ (i 1).val ∧ (i 1).val < win0_2.index ⟨(i 0).val / 5000, _⟩ (1 : Fin 2) * 128 + 128
    rw [e21]; omega

/-- The output array of the first call is the dense map of the features by the first weight matrix. -/
theorem region0_out (c : Dev nD) :
    (dat0 (F := Ideal) V c).arrAt 2 cfg0.N = Cert.Gcn.lin (n := 50000) (K := 128) (J := 128) (V c main_arg0) (V c main_arg2) :=
  (dat0 (F := Ideal) V c).arrAt_eq_of_cover 2 (Cert.Gcn.lin (n := 50000) (K := 128) (J := 128) (V c main_arg0) (V c main_arg2))
    (fun t _ => dense0_flushed V c t) dense0_cover

end Cert.KernelIdeal.Bridge

end
-- ==== Proof.KRegion1.lean ====
/-
  The value of the second tiled call (bias, rectifier, then the next layer's dense map), read off the
  pipeline's proof data at the extended reals.

  The call walks the 50000 rows in ten blocks of 5000. At block t it holds rows 5000 t … 5000 t + 4999 of the
  aggregated features a, the whole bias row b and the whole weight matrix w, and leaves in the result block the
  product (max (a + b) 0) · w: entry (p, q) of the block is the sum over the 128 features k of
  max (a[5000 t + p, k] + b[k]) 0 · w[k, q]. At the extended reals the change of float format before the
  product is the identity and the product into a zero accumulator is that exact sum, so every block is the
  restriction of ONE function of the three arrays, the specification's lin (act a b) w; the ten blocks tile
  the result, hence the result array is that function.
-/
import proofs.«417181_j18451179504149_1_alg».proof.Proof.Gen.KernelIdeal.Frame
import proofs.«417181_j18451179504149_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

namespace Region1

open Idealize.ShloMosaic.ValueIdx

/-! ## One entry of a block: the product (5000 × 128) · (128 × 128) contracts the left operand's columns
with the right operand's rows -/

/-- The left operand is read on the output entry's row … -/
theorem lhs_blockdot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the contraction coordinate as its column; -/
theorem lhs_blockdot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand is read at the contraction coordinate as its row … -/
theorem rhs_blockdot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … on the output entry's column. -/
theorem rhs_blockdot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The bias row of 128 entries seen as a 1 × 128 array reads, at (0, k), its entry k: both sit at row-major
    position k. -/
theorem row_as_matrix_apply (x : Vec Ideal S128 .f32) (h : S128.ShapeCasts S1x128) (u : Fin 1) (k : Fin 128) :
    shapeCast S1x128 x h (ix2 u k) = x (ix1 k) :=
  shapeCast_apply x h _ _ (by
    have hu : u.val = 0 := by omega
    rw [Shape.rowMajor_val_one, Shape.rowMajor_val_two]
    show k.val = u.val * 128 + k.val
    rw [hu, Nat.zero_mul, Nat.zero_add])

/-- ONE ENTRY OF WHAT A BLOCK COMPUTES: entry (p, q) of the product of the rectified biased rows with the
    weights is the sum over the 128 features k of max (a[p, k] + b[k]) 0 · w[k, q]. The bias row is broadcast
    down the 5000 rows, the rectifier compares with the zero word, the two changes of format are the identity
    at the extended reals, and the product starts from a zero accumulator. -/
theorem tile_apply (x0 : Vec Ideal S5000x128 .f32) (x1 : Vec Ideal S128 .f32) (x2 : Vec Ideal S128x128 .f32)
    (p : Fin 5000) (q : Fin 128) :
    k1_pay1 x0 x1 x2 (ix2 p q) = ∑ k : Fin 128, max (x0 (ix2 p k) + x1 (ix1 k)) 0 * x2 (ix2 k q) := by
  unfold k1_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blockdot_0 _ _
    | ⟨1, _⟩ => exact (lhs_blockdot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blockdot_0 _ _).trans hk
    | ⟨1, _⟩ => exact rhs_blockdot_1 _ _)
  rw [el, er]
  rw [truncf_apply, truncf_apply, maximumf_apply, addf_apply, shapeCast_self, broadcast_apply,
    broadcastTo_1b_ab_apply, row_as_matrix_apply]
  show max (x0 (ix2 p k) + x1 (ix1 k)) (Ideal.ofBits .f32 0x00000000#32) * x2 (ix2 k q) = _
  rw [Ideal.ofBits_zero_f32]

/-! ## From the ten blocks to the array -/

/-- The body reads and writes every staging buffer from its origin. -/
theorem origin2 : (![0, 0] : Fin 2 → Nat) = fun _ => 0 := funext fun a => by fin_cases a <;> rfl
theorem origin1 : (![0] : Fin 1 → Nat) = fun _ => 0 := funext fun a => by fin_cases a <;> rfl

/-- The index maps over the grid's ten points: the rows window and the result window sit at row block t, the
    bias and the weights are held whole. -/
theorem block_indices : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregated features the call finds: 50000 rows of 128. -/
abbrev rowsIn (c : Dev nD) : S50000x128.Idx → EReal := V c main_v37
/-- The bias row it finds. -/
abbrev biasIn (c : Dev nD) : S128.Idx → EReal := V c main_arg3
/-- The weights it finds. -/
abbrev weightsIn (c : Dev nD) : S128x128.Idx → EReal := V c main_arg4

/-- The call's result as ONE function of the three arrays: bias, rectifier, dense map. -/
abbrev dense (c : Dev nD) : S50000x128.Idx → EReal :=
  Cert.Gcn.lin (n := 50000) (K := 128) (J := 128) (Cert.Gcn.act (n := 50000) (J := 128) (rowsIn V c) (biasIn V c)) (weightsIn V c)

/-- WHAT POINT t WRITES BACK is block t of `dense`: entry (p, q) of the block is entry (5000 t + p, q) of the
    array, the rows block is read on the same rows (a block's coordinate is index × size + the coordinate
    inside the block), and the bias and the weights are read where they lie. -/
theorem flushed_rows (c : Dev nD) (t : Fin cfg1.N) :
    (dat1 (F := Ideal) V c).flushed 3 t = ((cfg1.win 3).blk t).view.read (Elt Ideal) (dense V c) := by
  show (cfg1.win 3).cut (grid1.coords t) ((dat1 V c).after 3 t) = _
  rw [after1_3]
  unfold out1_3
  rw [View.canon_unit_zero origin2]
  simp only [View.ld_unit_zero (S := S5000x128) origin2, View.ld_unit_zero (S := S128x128) origin2, View.ld_unit_zero (S := S128) origin1]
  obtain ⟨e00, e01, e10, e20, e21, e30, e31⟩ := block_indices t
  funext j
  obtain ⟨p, q, rfl⟩ : ∃ (p : Fin 5000) (q : Fin 128), j = ix2 p q := ⟨j 0, j 1, eq_ix2 j⟩
  refine (tile_apply _ _ _ p q).trans ?_
  have ht : t.val < 10 := lt_of_lt_of_eq t.isLt N_1
  have hb : t.val * 5000 + p.val < 50000 := by have hp := p.isLt; omega
  show ∑ k : Fin 128, max (rowsIn V c (((cfg1.win 0).blk t).view.emb (ix2 p k)) + biasIn V c (((cfg1.win 1).blk t).view.emb (ix1 k))) 0 * weightsIn V c (((cfg1.win 2).blk t).view.emb (ix2 k q))
     = dense V c (((cfg1.win 3).blk t).view.emb (ix2 p q))
  have h3 : ((cfg1.win 3).blk t).view.emb (ix2 p q) = ix2 (n0 := 50000) (n1 := 128) ⟨t.val * 5000 + p.val, hb⟩ q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [h3]
  show _ = ∑ k : Fin 128, max (rowsIn V c (ix2 (n0 := 50000) (n1 := 128) ⟨t.val * 5000 + p.val, hb⟩ k) + biasIn V c (ix1 k)) 0 * weightsIn V c (ix2 k q)
  refine Finset.sum_congr rfl fun k _ => ?_
  have h0 : ((cfg1.win 0).blk t).view.emb (ix2 p k) = ix2 (n0 := 50000) (n1 := 128) ⟨t.val * 5000 + p.val, hb⟩ k := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ((cfg1.win 1).blk t).view.emb (ix1 k) = ix1 (n := 128) k := by
    funext a; apply Fin.ext
    match a with
    | ⟨0, _⟩ => show win1_1.index t (0 : Fin 1) * 128 + 1 * k.val = k.val; omega
  have h2 : ((cfg1.win 2).blk t).view.emb (ix2 k q) = ix2 (n0 := 128) (n1 := 128) k q := by
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  rw [h0, h1, h2]

/-- An index of the result array is in point t's block iff each coordinate is in the block's range on its axis. -/
theorem mem_rows_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v38).slice (win1_3.rect t)).set ↔ _
  rw [View.set_slice_whole, Rect.mem_set_unit]
  exact Iff.rfl

/-- Row r of the result lies in the block of the point r / 5000, and every point writes its block back: the
    ten blocks cover the array. -/
theorem rows_covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega) N_1.symm⟩, rfl⟩
  obtain ⟨-, -, -, -, -, e30, e31⟩ := block_indices t
  refine ⟨t, flush1_3 t, ?_⟩
  rw [mem_rows_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

end Region1

/-- THE RESULT ARRAY after the call's ten points: the dense map of the rectified biased rows, as the
    specification writes it. -/
theorem region1_out (c : Dev nD) :
    (dat1 (F := Ideal) V c).arrAt 3 cfg1.N = Cert.Gcn.lin (n := 50000) (K := 128) (J := 128) (Cert.Gcn.act (n := 50000) (J := 128) (V c main_v37) (V c main_arg3)) (V c main_arg4) :=
  (dat1 (F := Ideal) V c).arrAt_eq_of_cover 3 (Region1.dense V c) (fun t _ => Region1.flushed_rows V c t) Region1.rows_covered

end Cert.KernelIdeal.Bridge

end
-- ==== Proof.KRegion2.lean ====
/-
  The value of the third tiled call (the fused "bias, rectifier, dense map" of the network's last layer).

  The call walks ten row blocks of 5000 of the 50000 nodes. At row block t it reads rows 5000 t … 5000 t + 4999 of
  the aggregated 128-feature matrix h, the whole bias row b (128 entries) and the whole weight matrix w (128 × 16), and
  writes rows 5000 t … 5000 t + 4999 of the 16-feature result. Over the extended reals, where every float operation is
  exact and a change of float format is the identity, entry (p, q) of what it writes is

      ∑ k < 128, max (h[5000 t + p, k] + b[k]) 0 · w[k, q],

  which is entry (5000 t + p, q) of the dense map of the rectified, biased matrix. The ten row blocks tile the
  50000 rows, so after the call the result array is that dense map, whole.

  Three steps: the stored block at an index (the sum above, over the block's own coordinates); what a grid point
  writes back is its row block of the one whole-array function; the row blocks cover the array.
-/
import proofs.«417181_j18451179504149_1_alg».proof.Proof.Gen.KernelIdeal.Frame
import proofs.«417181_j18451179504149_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

section Blocks

open Idealize.ShloMosaic.ValueIdx

/-! ## The contraction's operand indices

The matrix product contracts the left operand's axis 1 against the right operand's axis 0; at an output index
(p, q) and contraction coordinate k it reads the left operand at (p, k) and the right one at (k, q). -/

theorem lhs_prod_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhs_prod_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
theorem rhs_prod_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
theorem rhs_prod_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The rectified, biased left operand of the product at (p, k): the bias row, cast to one row and repeated down the
    5000 rows, is added to the block, and the result is cut off below at zero. -/
theorem act_block_apply (x0 : Vec Ideal S5000x128 .f32) (x1 : Vec Ideal S128 .f32) (p : Fin 5000) (k : Fin 128) :
    maximumf (addf (shapeCast S5000x128 x0 shapeCasts_S5000x128_S5000x128)
        (broadcastTo S5000x128 (shapeCast S1x128 x1 shapeCasts_S128_S1x128) broadcasts_S1x128_S5000x128))
      (broadcast S5000x128 (Scalar.ofBits (F := Ideal) .f32 0x00000000#32)) (ix2 p k)
      = max (x0 (ix2 p k) + x1 (ix1 k)) 0 := by
  rw [maximumf_apply, addf_apply, broadcast_apply, shapeCast_self,
    broadcastTo_apply _ broadcasts_S1x128_S5000x128 (ix2 p k) (ix2 (0 : Fin 1) k) (fun a => match a with
      | ⟨0, _⟩ => by show (0 : Nat) = if (1 : Nat) = 1 then 0 else _; rw [if_pos rfl]
      | ⟨1, _⟩ => by show k.val = if (128 : Nat) = 1 then 0 else k.val; rw [if_neg (by decide)]),
    shapeCast_apply x1 shapeCasts_S128_S1x128 (ix2 (0 : Fin 1) k) (ix1 k) (by
      rw [Shape.rowMajor_val_one, Shape.rowMajor_val_two]; show k.val = 0 * 128 + k.val; omega)]
  show max (x0 (ix2 p k) + x1 (ix1 k)) (Ideal.ofBits .f32 0x00000000#32) = _
  rw [Ideal.ofBits_zero_f32]

/-- THE PAYLOAD AT AN INDEX: entry (p, q) of what the body stores is the sum over k of the rectified, biased
    block entry (p, k) times the weight entry (k, q) (the narrowing of both factors to 16 bits is the identity on
    the extended reals, and the accumulator starts at zero). -/
theorem pay_apply (x0 : Vec Ideal S5000x128 .f32) (x1 : Vec Ideal S128 .f32) (x2 : Vec Ideal S128x16 .f32)
    (p : Fin 5000) (q : Fin 16) :
    k2_pay1 x0 x1 x2 (ix2 p q) = ∑ k : Fin 128, max (x0 (ix2 p k) + x1 (ix1 k)) 0 * x2 (ix2 k q) := by
  unfold k2_pay1
  simp only [matmul]
  rw [Ideal.matmul_constant_zero_apply, ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p q) ((contrEquiv1 dot_S5000x128_S128x16_S5000x16_1_0_0_1_n_n 128 rfl rfl).symm k) = ix2 p k := funext fun a => Fin.ext (by
    match a with
    | ⟨0, _⟩ => exact lhs_prod_0 _ _
    | ⟨1, _⟩ => exact (lhs_prod_1 _ _).trans hk)
  have er : dot_S5000x128_S128x16_S5000x16_1_0_0_1_n_n.rhsIdx (ix2 p q) ((contrEquiv1 dot_S5000x128_S128x16_S5000x16_1_0_0_1_n_n 128 rfl rfl).symm k) = ix2 k q := funext fun a => Fin.ext (by
    match a with
    | ⟨0, _⟩ => exact (rhs_prod_0 _ _).trans hk
    | ⟨1, _⟩ => exact rhs_prod_1 _ _)
  rw [el, er, truncf_apply, truncf_apply, act_block_apply]

/-! ## From the blocks to the array -/

theorem zero2 : (![0, 0] : Fin 2 → Nat) = fun _ => 0 := funext fun a => by fin_cases a <;> rfl
theorem zero1 : (![0] : Fin 1 → Nat) = fun _ => 0 := funext fun a => by fin_cases a; rfl

/-- The three arrays the call reads, at their matrix types: the aggregated second-layer features, the bias row
    and the third layer's weights. -/
abbrev feat (c : Dev nD) : Cert.Gcn.Mat 50000 128 := V c main_v45
abbrev bias (c : Dev nD) : Cert.Gcn.Row 128 := V c main_arg5
abbrev wts (c : Dev nD) : Cert.Gcn.Mat 128 16 := V c main_arg6

/-- The third layer's dense map of the rectified, biased second-layer aggregate: what the output array holds
    after the call, as one function of the three arrays the call reads. -/
abbrev dense3 (c : Dev nD) : Cert.Gcn.Mat 50000 16 :=
  Cert.Gcn.lin (n := 50000) (K := 128) (J := 16) (Cert.Gcn.act (n := 50000) (J := 128) (V c main_v45) (V c main_arg5)) (V c main_arg6)

/-- The windows' index maps over the grid: the feature block and the output block of point t are row block t;
    the bias row and the weight matrix are whole at every point. -/
theorem block_indices : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT t WRITES BACK is row block t of the dense map: entry (p, q) of the block is entry
    (5000 t + p, q) of the array, and the feature block's row p is the feature array's row 5000 t + p. -/
theorem flushed_eq (c : Dev nD) (t : Fin cfg2.N) :
    (dat2 (F := Ideal) V c).flushed 3 t = ((cfg2.win 3).blk t).view.read (Elt Ideal) (dense3 V c) := by
  show (cfg2.win 3).cut (grid2.coords t) ((dat2 (F := Ideal) V c).after 3 t) = _
  rw [after2_3]
  unfold out2_3
  rw [View.canon_unit_zero zero2]
  simp only [View.ld_unit_zero (S := S5000x128) zero2, View.ld_unit_zero (S := S128) zero1, View.ld_unit_zero (S := S128x16) zero2]
  obtain ⟨e00, e01, e10, e20, e21, e30, e31⟩ := block_indices t
  funext j
  obtain ⟨p, q, rfl⟩ : ∃ (p : Fin 5000) (q : Fin 16), j = ix2 p q := ⟨j 0, j 1, eq_ix2 j⟩
  refine (pay_apply _ _ _ p q).trans ?_
  have ht : t.val < 10 := by have h := t.isLt; have hN : cfg2.N = 10 := N_2; omega
  have hp : p.val < 5000 := p.isLt
  obtain ⟨r, hr⟩ : ∃ r : Fin 50000, r.val = t.val * 5000 + p.val := ⟨⟨_, by omega⟩, rfl⟩
  have h3 : ((cfg2.win 3).blk t).view.emb (ix2 p q) = ix2 r q := by
    funext a; apply Fin.ext
    match a with
    | ⟨0, _⟩ => show win2_3.index t (0 : Fin 2) * 5000 + 1 * p.val = r.val; rw [e30, hr]; omega
    | ⟨1, _⟩ => show win2_3.index t (1 : Fin 2) * 16 + 1 * q.val = q.val; rw [e31]; omega
  show _ = dense3 V c (((cfg2.win 3).blk t).view.emb (ix2 p q))
  rw [h3]
  show _ = ∑ k : Fin 128, max (feat V c (ix2 r k) + bias V c (ix1 k)) 0 * wts V c (ix2 k q)
  refine Finset.sum_congr rfl fun k _ => ?_
  have h0 : ((cfg2.win 0).blk t).view.emb (ix2 p k) = ix2 r k := by
    funext a; apply Fin.ext
    match a with
    | ⟨0, _⟩ => show win2_0.index t (0 : Fin 2) * 5000 + 1 * p.val = r.val; rw [e00, hr]; omega
    | ⟨1, _⟩ => show win2_0.index t (1 : Fin 2) * 128 + 1 * k.val = k.val; rw [e01]; omega
  have h1 : ((cfg2.win 1).blk t).view.emb (ix1 k) = ix1 k := by
    funext a; apply Fin.ext
    match a with
    | ⟨0, _⟩ => show win2_1.index t (0 : Fin 1) * 128 + 1 * k.val = k.val; rw [e10]; omega
  have h2 : ((cfg2.win 2).blk t).view.emb (ix2 k q) = ix2 k q := by
    funext a; apply Fin.ext
    match a with
    | ⟨0, _⟩ => show win2_2.index t (0 : Fin 2) * 128 + 1 * k.val = k.val; rw [e20]; omega
    | ⟨1, _⟩ => show win2_2.index t (1 : Fin 2) * 16 + 1 * q.val = q.val; rw [e21]; omega
  show max (feat V c (((cfg2.win 0).blk t).view.emb (ix2 p k)) + bias V c (((cfg2.win 1).blk t).view.emb (ix1 k))) 0
      * wts V c (((cfg2.win 2).blk t).view.emb (ix2 k q)) = _
  rw [h0, h1, h2]

/-- An index of the output array is in point t's block iff each coordinate is in the block's range on its axis. -/
theorem mem_blk (t : Fin cfg2.N) (i : S50000x16.Idx) :
    i ∈ ((cfg2.win 3).blk t).view.set ↔ ∀ a : Fin 2, win2_3.index t a * S5000x16.size a ≤ (i a).val ∧ (i a).val < win2_3.index t a * S5000x16.size a + S5000x16.size a := by
  show i ∈ ((View.whole main_v46).slice (win2_3.rect t)).set ↔ _
  rw [View.set_slice_whole, Rect.mem_set_unit]
  exact Iff.rfl

/-- The ten row blocks tile the output array: row r is in the block of point r / 5000. -/
theorem blocks_cover (i : S50000x16.Idx) :
    ∃ t : Fin cfg2.N, (cfg2.win 3).flush t = true ∧ i ∈ ((cfg2.win 3).blk t).view.set := by
  have hi0 : (i 0).val < 50000 := (i 0).isLt
  have hi1 : (i 1).val < 16 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, -, e30, e31⟩ := block_indices t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e30, ht]; omega
  | ⟨1, _⟩ => show win2_3.index t (1 : Fin 2) * 16 ≤ (i 1).val ∧ (i 1).val < win2_3.index t (1 : Fin 2) * 16 + 16; rw [e31]; omega

end Blocks

/-- THE OUTPUT ARRAY AFTER THE CALL is the dense map of the rectified, biased aggregate, whole: every point
    writes back its row block of that one function, and the row blocks tile the array. -/
theorem region2_out (c : Dev nD) :
    (dat2 (F := Ideal) V c).arrAt 3 cfg2.N = Cert.Gcn.lin (n := 50000) (K := 128) (J := 16) (Cert.Gcn.act (n := 50000) (J := 128) (V c main_v45) (V c main_arg5)) (V c main_arg6) :=
  (dat2 (F := Ideal) V c).arrAt_eq_of_cover 3 (dense3 V c) (fun t _ => flushed_eq V c t) blocks_cover

end Cert.KernelIdeal.Bridge

end
-- ==== Proof.KRegion3.lean ====
/-
  The value of the last tiled call: the output array after its ten row blocks are written back is,
  entry by entry, max (h[r, q] + b[q]) 0 of the feature matrix h and the bias row b the call finds.
-/
import proofs.«417181_j18451179504149_1_alg».proof.Proof.Gen.KernelIdeal.Frame
import proofs.«417181_j18451179504149_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.Pipeline (Dat Cfg Window)
open Idealize.ShloMosaic.ValueIdx

/-- One block's payload at (p, q): the block's entry plus the bias row's entry q, cut below at zero. -/
theorem biasRelu_apply (x0 : Vec Ideal S5000x16 .f32) (x1 : Vec Ideal S16 .f32) (p : Fin 5000) (q : Fin 16) :
    k3_pay1 (F := Ideal) x0 x1 (ix2 p q) = max (x0 (ix2 p q) + x1 (ix1 q)) 0 := by
  unfold k3_pay1
  show max (shapeCast S5000x16 x0 shapeCasts_S5000x16_S5000x16 (ix2 p q)
      + broadcastTo S5000x16 (shapeCast S1x16 x1 shapeCasts_S16_S1x16) broadcasts_S1x16_S5000x16 (ix2 p q))
      (Ideal.ofBits .f32 0x00000000#32) = _
  rw [shapeCast_self, broadcastTo_1b_ab_apply, shapeCast_a_1a_apply, Ideal.ofBits_zero_f32]

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the feature window and the output window sit at row block t,
    column block 0; the bias window always at block 0. -/
theorem blockIndex : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The feature window's block at point t is rows 5000 t … 5000 t + 4999 of the feature matrix. -/
theorem rowBlock_apply (c : Dev nD) (t : Fin cfg3.N) (x : S5000x16.Idx) (k : S50000x16.Idx)
    (hk0 : (k 0).val = t.val * 5000 + (x 0).val) (hk1 : (k 1).val = (x 1).val) :
    (iblk3 (F := Ideal) V c 0 t : Vec Ideal S5000x16 .f32) x = (V c main_v53 : S50000x16.Idx → Elt Ideal .f32) k := by
  obtain ⟨e0, e1, -⟩ := blockIndex t
  unfold iblk3
  rw [View.read_apply]
  show V c main_v53 _ = V c main_v53 _
  congr 1
  funext a
  apply Fin.ext
  match a with
  | ⟨0, _⟩ => show win3_0.index t 0 * 5000 + 1 * (x 0).val = (k 0).val; rw [e0, hk0]; omega
  | ⟨1, _⟩ => show win3_0.index t 1 * 16 + 1 * (x 1).val = (k 1).val; rw [e1, hk1]; omega

/-- The bias window's block at every point is the whole bias row. -/
theorem biasBlock_apply (c : Dev nD) (t : Fin cfg3.N) (x : S16.Idx) :
    (iblk3 (F := Ideal) V c 1 t : Vec Ideal S16 .f32) x = (V c main_arg7 : S16.Idx → Elt Ideal .f32) x := by
  obtain ⟨-, -, e2, -⟩ := blockIndex t
  unfold iblk3
  rw [View.read_apply]
  show V c main_arg7 _ = V c main_arg7 _
  congr 1
  funext a
  apply Fin.ext
  match a with
  | ⟨0, _⟩ => show win3_1.index t 0 * 16 + 1 * (x 0).val = (x 0).val; rw [e2]; omega

/-- What point t writes back is block t of the whole-array function. -/
theorem writeBack_eq (c : Dev nD) (t : Fin cfg3.N) :
    (dat3 (F := Ideal) V c).flushed 2 t
      = ((cfg3.win 2).blk t).view.read (Elt Ideal) (Cert.Gcn.act (n := 50000) (J := 16) (V c main_v53) (V c main_arg7)) := by
  show (cfg3.win 2).cut (grid3.coords t) ((dat3 V c).after 2 t) = _
  rw [after3_2]
  unfold out3_2
  rw [View.canon_unit_zero zeros2]
  simp only [View.ld_unit_zero (S := S5000x16) zeros2, View.ld_unit_zero (S := S16) zeros1]
  obtain ⟨-, -, -, e3, e4⟩ := blockIndex t
  have hN : grid3.N = 10 := N_3
  have ht : t.val < 10 := Nat.lt_of_lt_of_eq t.isLt hN
  funext j
  have hp : (j 0).val < 5000 := (j 0).isLt
  have hq : (j 1).val < 16 := (j 1).isLt
  -- the block's entry j is entry (p, q) of the payload …
  have hj : (cfg3.win 2).xinj (grid3.coords t) j = ix2 (⟨(j 0).val, hp⟩ : Fin 5000) (⟨(j 1).val, hq⟩ : Fin 16) := by
    funext a
    match a with
    | ⟨0, _⟩ => rfl
    | ⟨1, _⟩ => rfl
  -- … and sits in the array at row 5000 t + p, column q
  have hemb : ((cfg3.win 2).blk t).view.emb j
      = ix2 (⟨t.val * 5000 + (j 0).val, by omega⟩ : Fin 50000) (⟨(j 1).val, hq⟩ : Fin 16) := by
    funext a
    apply Fin.ext
    match a with
    | ⟨0, _⟩ => show win3_2.index t 0 * 5000 + 1 * (j 0).val = t.val * 5000 + (j 0).val; rw [e3]; omega
    | ⟨1, _⟩ => show win3_2.index t 1 * 16 + 1 * (j 1).val = (j 1).val; rw [e4]; omega
  show k3_pay1 (F := Ideal) (iblk3 V c 0 t) (iblk3 V c 1 t) ((cfg3.win 2).xinj (grid3.coords t) j)
    = Cert.Gcn.act (n := 50000) (J := 16) (V c main_v53) (V c main_arg7) (((cfg3.win 2).blk t).view.emb j)
  rw [hj, hemb, biasRelu_apply]
  have h0 := rowBlock_apply V c t (ix2 (⟨(j 0).val, hp⟩ : Fin 5000) (⟨(j 1).val, hq⟩ : Fin 16))
    (ix2 (⟨t.val * 5000 + (j 0).val, by omega⟩ : Fin 50000) (⟨(j 1).val, hq⟩ : Fin 16)) rfl rfl
  have h1 := biasBlock_apply V c t (ix1 (⟨(j 1).val, hq⟩ : Fin 16))
  exact congrArg₂ (fun a b : EReal => max (a + b) 0) h0 h1

/-- An entry of the array is in point t's block iff its row and column are in the block's ranges. -/
theorem mem_block (t : Fin cfg3.N) (i : S50000x16.Idx) :
    i ∈ ((cfg3.win 2).blk t).view.set ↔ ∀ a : Fin 2, win3_2.index t a * S5000x16.size a ≤ (i a).val
      ∧ (i a).val < win3_2.index t a * S5000x16.size a + S5000x16.size a := by
  show i ∈ ((View.whole main_v54).slice (win3_2.rect t)).set ↔ _
  rw [View.set_slice_whole, Rect.mem_set_unit]
  exact Iff.rfl

/-- The ten row blocks fill the array (row r is in the block of point r / 5000), so after the last
    write-back the output array is bias-then-rectifier of the feature matrix, entry by entry. -/
theorem region3_out (c : Dev nD) :
    (dat3 (F := Ideal) V c).arrAt 2 cfg3.N = Cert.Gcn.act (n := 50000) (J := 16) (V c main_v53) (V c main_arg7) :=
  (dat3 (F := Ideal) V c).arrAt_eq_of_cover 2 _ (fun t _ => writeBack_eq V c t) (fun i => by
    have hN : grid3.N = 10 := N_3
    have hi0 : (i 0).val < 50000 := (i 0).isLt
    have hi1 : (i 1).val < 16 := (i 1).isLt
    have hlt : (i 0).val / 5000 < cfg3.N := by show _ < grid3.N; rw [hN]; omega
    refine ⟨⟨(i 0).val / 5000, hlt⟩, flush3_2 _, ?_⟩
    rw [mem_block]
    obtain ⟨-, -, -, e3, e4⟩ := blockIndex ⟨(i 0).val / 5000, hlt⟩
    intro a
    match a with
    | ⟨0, _⟩ =>
      show win3_2.index ⟨(i 0).val / 5000, hlt⟩ 0 * 5000 ≤ (i 0).val
        ∧ (i 0).val < win3_2.index ⟨(i 0).val / 5000, hlt⟩ 0 * 5000 + 5000
      rw [e3]; show (i 0).val / 5000 * 5000 ≤ (i 0).val ∧ (i 0).val < (i 0).val / 5000 * 5000 + 5000; omega
    | ⟨1, _⟩ =>
      show win3_2.index ⟨(i 0).val / 5000, hlt⟩ 1 * 16 ≤ (i 1).val
        ∧ (i 1).val < win3_2.index ⟨(i 0).val / 5000, hlt⟩ 1 * 16 + 16
      rw [e4]; omega)

end Cert.KernelIdeal.Bridge

end
-- ==== Proof.KValue.lean ====
/-
  The kernel program's result as the network of Spec, boundary by boundary.

  The first tiled call leaves the dense map of the features; each host stretch after a call aggregates that
  call's output (with the index lists and the normalisation computed before the first call, which nothing
  writes afterwards); each later call applies bias, rectifier and the next dense map to what the stretch
  before it produced; the last call applies bias and rectifier. Composed, the result buffer holds the
  three-layer network over the kernel program's own aggregations.
-/
import proofs.«417181_j18451179504149_1_alg».proof.Proof.Carry
import proofs.«417181_j18451179504149_1_alg».proof.Proof.KAgg1
import proofs.«417181_j18451179504149_1_alg».proof.Proof.KAgg2
import proofs.«417181_j18451179504149_1_alg».proof.Proof.KAgg3
import proofs.«417181_j18451179504149_1_alg».proof.Proof.KRegion0
import proofs.«417181_j18451179504149_1_alg».proof.Proof.KRegion1
import proofs.«417181_j18451179504149_1_alg».proof.Proof.KRegion2
import proofs.«417181_j18451179504149_1_alg».proof.Proof.KRegion3

set_option maxRecDepth 16384

noncomputable section

namespace Cert.KernelIdeal.Bridge

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- After the first call: the dense map of the node features. -/
theorem layer1_dense (c : Dev nD) :
    W4 m ρ c (Proc.devRef .tc main_v30) = (Cert.Gcn.lin (n := 50000) (K := 128) (J := 128) (m ((c : Thread nD τ).loc main_arg0)) (m ((c : Thread nD τ).loc main_arg2))) := by
  have h := (W4_arr m ρ c 2).trans (region0_out (V3 m ρ) c)
  rw [show V3 m ρ c main_arg0 = (m ((c : Thread nD τ).loc main_arg0)) from W3_arg0 m ρ c,
    show V3 m ρ c main_arg2 = (m ((c : Thread nD τ).loc main_arg2)) from W3_arg2 m ρ c] at h
  exact h

/-- Before the second call: its aggregation. -/
theorem layer1_agg (c : Dev nD) :
    W6 m ρ c (Proc.devRef .tc main_v37) = (aggK128 (F := Ideal) (W3 m ρ c (Proc.devRef .tc main_v3)) (W3 m ρ c (Proc.devRef .tc main_v6)) (W3 m ρ c (Proc.devRef .tc main_v29)) (Cert.Gcn.lin (n := 50000) (K := 128) (J := 128) (m ((c : Thread nD τ).loc main_arg0)) (m ((c : Thread nD τ).loc main_arg2)))) := by
  rw [W6_v37, W4_v3, W4_v6, W4_v29, layer1_dense]

/-- After the second call: bias, rectifier, the second dense map. -/
theorem layer2_dense (c : Dev nD) :
    W7 m ρ c (Proc.devRef .tc main_v38) = (Cert.Gcn.lin (n := 50000) (K := 128) (J := 128) (Cert.Gcn.act (n := 50000) (J := 128) (aggK128 (F := Ideal) (W3 m ρ c (Proc.devRef .tc main_v3)) (W3 m ρ c (Proc.devRef .tc main_v6)) (W3 m ρ c (Proc.devRef .tc main_v29)) (Cert.Gcn.lin (n := 50000) (K := 128) (J := 128) (m ((c : Thread nD τ).loc main_arg0)) (m ((c : Thread nD τ).loc main_arg2)))) (m ((c : Thread nD τ).loc main_arg3))) (m ((c : Thread nD τ).loc main_arg4))) := by
  have h := (W7_arr m ρ c 3).trans (region1_out (V6 m ρ) c)
  rw [show V6 m ρ c main_v37 = (aggK128 (F := Ideal) (W3 m ρ c (Proc.devRef .tc main_v3)) (W3 m ρ c (Proc.devRef .tc main_v6)) (W3 m ρ c (Proc.devRef .tc main_v29)) (Cert.Gcn.lin (n := 50000) (K := 128) (J := 128) (m ((c : Thread nD τ).loc main_arg0)) (m ((c : Thread nD τ).loc main_arg2)))) from layer1_agg m ρ c,
    show V6 m ρ c main_arg3 = (m ((c : Thread nD τ).loc main_arg3)) from W6_arg3 m ρ c,
    show V6 m ρ c main_arg4 = (m ((c : Thread nD τ).loc main_arg4)) from W6_arg4 m ρ c] at h
  exact h

/-- Before the third call: its aggregation. -/
theorem layer2_agg (c : Dev nD) :
    W9 m ρ c (Proc.devRef .tc main_v45) = (aggK128 (F := Ideal) (W3 m ρ c (Proc.devRef .tc main_v3)) (W3 m ρ c (Proc.devRef .tc main_v6)) (W3 m ρ c (Proc.devRef .tc main_v29)) (Cert.Gcn.lin (n := 50000) (K := 128) (J := 128) (Cert.Gcn.act (n := 50000) (J := 128) (aggK128 (F := Ideal) (W3 m ρ c (Proc.devRef .tc main_v3)) (W3 m ρ c (Proc.devRef .tc main_v6)) (W3 m ρ c (Proc.devRef .tc main_v29)) (Cert.Gcn.lin (n := 50000) (K := 128) (J := 128) (m ((c : Thread nD τ).loc main_arg0)) (m ((c : Thread nD τ).loc main_arg2)))) (m ((c : Thread nD τ).loc main_arg3))) (m ((c : Thread nD τ).loc main_arg4)))) := by
  rw [W9_v45, W7_v3, W7_v6, W7_v29, layer2_dense]

/-- After the third call: bias, rectifier, the third dense map (16 features). -/
theorem layer3_dense (c : Dev nD) :
    W10 m ρ c (Proc.devRef .tc main_v46) = (Cert.Gcn.lin (n := 50000) (K := 128) (J := 16) (Cert.Gcn.act (n := 50000) (J := 128) (aggK128 (F := Ideal) (W3 m ρ c (Proc.devRef .tc main_v3)) (W3 m ρ c (Proc.devRef .tc main_v6)) (W3 m ρ c (Proc.devRef .tc main_v29)) (Cert.Gcn.lin (n := 50000) (K := 128) (J := 128) (Cert.Gcn.act (n := 50000) (J := 128) (aggK128 (F := Ideal) (W3 m ρ c (Proc.devRef .tc main_v3)) (W3 m ρ c (Proc.devRef .tc main_v6)) (W3 m ρ c (Proc.devRef .tc main_v29)) (Cert.Gcn.lin (n := 50000) (K := 128) (J := 128) (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6))) := by
  have h := (W10_arr m ρ c 3).trans (region2_out (V9 m ρ) c)
  rw [show V9 m ρ c main_v45 = (aggK128 (F := Ideal) (W3 m ρ c (Proc.devRef .tc main_v3)) (W3 m ρ c (Proc.devRef .tc main_v6)) (W3 m ρ c (Proc.devRef .tc main_v29)) (Cert.Gcn.lin (n := 50000) (K := 128) (J := 128) (Cert.Gcn.act (n := 50000) (J := 128) (aggK128 (F := Ideal) (W3 m ρ c (Proc.devRef .tc main_v3)) (W3 m ρ c (Proc.devRef .tc main_v6)) (W3 m ρ c (Proc.devRef .tc main_v29)) (Cert.Gcn.lin (n := 50000) (K := 128) (J := 128) (m ((c : Thread nD τ).loc main_arg0)) (m ((c : Thread nD τ).loc main_arg2)))) (m ((c : Thread nD τ).loc main_arg3))) (m ((c : Thread nD τ).loc main_arg4)))) from layer2_agg m ρ c,
    show V9 m ρ c main_arg5 = (m ((c : Thread nD τ).loc main_arg5)) from W9_arg5 m ρ c,
    show V9 m ρ c main_arg6 = (m ((c : Thread nD τ).loc main_arg6)) from W9_arg6 m ρ c] at h
  exact h

/-- Before the last call: its aggregation. -/
theorem layer3_agg (c : Dev nD) :
    W12 m ρ c (Proc.devRef .tc main_v53) = (aggK16 (F := Ideal) (W3 m ρ c (Proc.devRef .tc main_v3)) (W3 m ρ c (Proc.devRef .tc main_v6)) (W3 m ρ c (Proc.devRef .tc main_v29)) (Cert.Gcn.lin (n := 50000) (K := 128) (J := 16) (Cert.Gcn.act (n := 50000) (J := 128) (aggK128 (F := Ideal) (W3 m ρ c (Proc.devRef .tc main_v3)) (W3 m ρ c (Proc.devRef .tc main_v6)) (W3 m ρ c (Proc.devRef .tc main_v29)) (Cert.Gcn.lin (n := 50000) (K := 128) (J := 128) (Cert.Gcn.act (n := 50000) (J := 128) (aggK128 (F := Ideal) (W3 m ρ c (Proc.devRef .tc main_v3)) (W3 m ρ c (Proc.devRef .tc main_v6)) (W3 m ρ c (Proc.devRef .tc main_v29)) (Cert.Gcn.lin (n := 50000) (K := 128) (J := 128) (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)))) := by
  rw [W12_v53, W10_v3, W10_v6, W10_v29, layer3_dense]

/-- The result buffer at the last boundary: the three-layer network over the kernel program's aggregations. -/
theorem result_net (c : Dev nD) :
    W13 m ρ c (Proc.devRef .tc main_v54)
      = Cert.Gcn.net (aggK128 (F := Ideal) (W3 m ρ c (Proc.devRef .tc main_v3)) (W3 m ρ c (Proc.devRef .tc main_v6)) (W3 m ρ c (Proc.devRef .tc main_v29))) (aggK16 (F := Ideal) (W3 m ρ c (Proc.devRef .tc main_v3)) (W3 m ρ c (Proc.devRef .tc main_v6)) (W3 m ρ c (Proc.devRef .tc main_v29))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := (W13_arr m ρ c 2).trans (region3_out (V12 m ρ) c)
  rw [show V12 m ρ c main_v53 = (aggK16 (F := Ideal) (W3 m ρ c (Proc.devRef .tc main_v3)) (W3 m ρ c (Proc.devRef .tc main_v6)) (W3 m ρ c (Proc.devRef .tc main_v29)) (Cert.Gcn.lin (n := 50000) (K := 128) (J := 16) (Cert.Gcn.act (n := 50000) (J := 128) (aggK128 (F := Ideal) (W3 m ρ c (Proc.devRef .tc main_v3)) (W3 m ρ c (Proc.devRef .tc main_v6)) (W3 m ρ c (Proc.devRef .tc main_v29)) (Cert.Gcn.lin (n := 50000) (K := 128) (J := 128) (Cert.Gcn.act (n := 50000) (J := 128) (aggK128 (F := Ideal) (W3 m ρ c (Proc.devRef .tc main_v3)) (W3 m ρ c (Proc.devRef .tc main_v6)) (W3 m ρ c (Proc.devRef .tc main_v29)) (Cert.Gcn.lin (n := 50000) (K := 128) (J := 128) (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)))) from layer3_agg m ρ c,
    show V12 m ρ c main_arg7 = (m ((c : Thread nD τ).loc main_arg7)) from W12_arg7 m ρ c] at h
  exact h

end Cert.KernelIdeal.Bridge

end
-- ==== Proof.KRBridge.lean ====
/-
  Where the two programs meet on the irregular part.

  Both programs compute the extended index lists and the per-edge normalisation from the edge list by the
  same operations, so those three buffers of the kernel's program ARE the reference's stages. The
  aggregations differ in one place only: the kernel's program fetches a source row the "fill" way, the
  reference by a plain (clamping) gather. Where every wrapped source index is a row of the table the fill
  never happens, and the two aggregations are one function of the feature matrix.
-/
import proofs.«417181_j18451179504149_1_alg».proof.Proof.Gen.KernelIdeal.Frame
import proofs.«417181_j18451179504149_1_alg».proof.Proof.KIdx
import Idealize.ShloMosaic.Lib.StableHlo.Run
import proofs.«417181_j18451179504149_1_alg».proof.Proof.RefStages
import Idealize.ShloMosaic.Lib.ValueIdx

set_option maxRecDepth 16384

noncomputable section

namespace Cert.Bridge

open Idealize.ShloMosaic Idealize.ShloMosaic.TcCoe Idealize.SL.Sem Idealize.ShloMosaic.StableHlo
open Cert.KernelIdeal.Bridge Cert.ReferenceIdeal.Bridge Cert.ReferenceIdeal.ReadP

/-- A selection whose mask is all ones, spread along further axes, takes its first operand everywhere. -/
theorem select_all_ones {s t : Shape} {α : Type} (dims : Fin s.rank → Fin t.rank) (hb : s.BroadcastsInDim t dims)
    (msk : IVec s 1) (hm : msk = fun _ => 1#1) (a b : t.Idx → α) :
    select (broadcastInDim t dims hb msk) a b = a := by
  subst hm
  funext i
  rw [ValueIdx.select_apply]
  exact ValueIdx.select_one _ _

section Stages

variable {F : FTy → Type} [FloatOps F]
variable (m : (ℓ : Loc Cert.KernelIdeal.nD Cert.KernelIdeal.τ Cert.KernelIdeal.sig) → Buf (Elt F) ℓ) (ρ : Dev Cert.KernelIdeal.nD → PrngReg)

/-! ## The buffers computed before the first tiled call are the reference's stages -/

/-- The extended source list. -/
theorem edgeRow0_ref (x1 : IVec Cert.KernelIdeal.S2x1600000 32) : edgeRow0 x1 = val_main_v3 (F := F) x1 := by
  unfold edgeRow0 val_main_v3 val_main_v2 val_main_v1 val_main_v0
  rfl

set_option maxHeartbeats 4000000 in
theorem W3_v3_ref (c : Dev Cert.KernelIdeal.nD) :
    Cert.KernelIdeal.Gen.W3 m ρ c (Proc.devRef .tc Cert.KernelIdeal.main_v3) = val_main_v3 (F := F) (m ((c.tc : Thread Cert.KernelIdeal.nD Cert.KernelIdeal.τ).loc Cert.KernelIdeal.main_arg1)) := by
  dsimp only [Cert.KernelIdeal.Gen.W3, Cert.KernelIdeal.Gen.W2, Cert.KernelIdeal.Gen.W1, Cert.KernelIdeal.Gen.hostOps0_2, Cert.KernelIdeal.Gen.hostOps0_1, Cert.KernelIdeal.Gen.hostOps0]
  after_results_simp
  unfold val_main_v3 val_main_v2 val_main_v1 val_main_v0
  rfl

set_option maxHeartbeats 4000000 in
/-- The extended target list. -/
theorem W3_v6_ref (c : Dev Cert.KernelIdeal.nD) :
    Cert.KernelIdeal.Gen.W3 m ρ c (Proc.devRef .tc Cert.KernelIdeal.main_v6) = val_main_v6 (F := F) (m ((c.tc : Thread Cert.KernelIdeal.nD Cert.KernelIdeal.τ).loc Cert.KernelIdeal.main_arg1)) := by
  dsimp only [Cert.KernelIdeal.Gen.W3, Cert.KernelIdeal.Gen.W2, Cert.KernelIdeal.Gen.W1, Cert.KernelIdeal.Gen.hostOps0_2, Cert.KernelIdeal.Gen.hostOps0_1, Cert.KernelIdeal.Gen.hostOps0]
  after_results_simp
  unfold val_main_v6 val_main_v5 val_main_v4 val_main_v0
  rfl

set_option maxHeartbeats 8000000 in
/-- The per-edge normalisation: degree by a scatter of ones, its inverse square root where positive, fetched at both
    ends of every edge and multiplied. The selection "where positive" is a function of its own in the program: its
    values travel through typed buffers whose types are the values' own. -/
theorem W3_v29_ref (c : Dev Cert.KernelIdeal.nD) :
    Cert.KernelIdeal.Gen.W3 m ρ c (Proc.devRef .tc Cert.KernelIdeal.main_v29) = val_main_v29 (F := F) (m ((c.tc : Thread Cert.KernelIdeal.nD Cert.KernelIdeal.τ).loc Cert.KernelIdeal.main_arg1)) := by
  dsimp only [Cert.KernelIdeal.Gen.W3, Cert.KernelIdeal.Gen.W2, Cert.KernelIdeal.Gen.W1, Cert.KernelIdeal.Gen.hostOps0_2, Cert.KernelIdeal.Gen.hostOps0_1, Cert.KernelIdeal.Gen.hostOps0]
  after_results_simp
  simp only [ofBuf_toBuf]
  rw [show ∀ v : (⟨Cert.KernelIdeal.S50000, .f32⟩ : BufTy).Contents (Elt F),
        (TRef.of Cert.KernelIdeal.main_v14 : TRef Cert.KernelIdeal.sig ⟨Cert.KernelIdeal.S50000, .f32⟩).toBuf v = v from fun _ => rfl,
    show ∀ v : (⟨Cert.KernelIdeal.S50000, .i1⟩ : BufTy).Contents (Elt F),
        (TRef.of Cert.KernelIdeal.main_v12 : TRef Cert.KernelIdeal.sig ⟨Cert.KernelIdeal.S50000, .i1⟩).ofBuf v = v from fun _ => rfl,
    show ∀ v : (⟨Cert.KernelIdeal.S50000, .f32⟩ : BufTy).Contents (Elt F),
        (TRef.of Cert.KernelIdeal.main_v13 : TRef Cert.KernelIdeal.sig ⟨Cert.KernelIdeal.S50000, .f32⟩).ofBuf v = v from fun _ => rfl,
    show ∀ v : (⟨Cert.KernelIdeal.S_, .f32⟩ : BufTy).Contents (Elt F),
        (TRef.of Cert.KernelIdeal.main_cst_2 : TRef Cert.KernelIdeal.sig ⟨Cert.KernelIdeal.S_, .f32⟩).ofBuf v = v from fun _ => rfl]
  unfold val_main_v29 val_main_v28 val_main_v27 val_main_v26 val_main_v25 val_main_v24 val_main_c_5 val_main_v23 val_main_v22 val_main_c_4
    val_main_v21 val_main_v20 val_main_v19 val_main_v18 val_main_v17 val_main_c_3 val_main_v16 val_main_v15 val_main_c
    val_main_v14 val_main_call0_v1 val_main_call0_v0 val_main_cst_2 val_main_v13 val_main_v12 val_main_v11 val_main_cst_1
    val_main_v10 val_main_v9 val_main_v8 val_main_cst_0 val_main_v7 val_main_cst
    val_main_v6 val_main_v5 val_main_v4 val_main_v3 val_main_v2 val_main_v1 val_main_v0
  rfl

end Stages

/-! ## Where every source index is a row of the table the two aggregations are one function -/

theorem agg128_ref (x1 : IVec Cert.KernelIdeal.S2x1600000 32)
    (hmask : inRange (val_main_v3 (F := Ideal) x1) = fun _ => 1#1) (h : FVec Ideal Cert.KernelIdeal.S50000x128 .f32) :
    aggK128 (F := Ideal) (val_main_v3 (F := Ideal) x1) (val_main_v6 (F := Ideal) x1) (val_main_v29 (F := Ideal) x1) h
      = agg128 x1 h := by
  unfold aggK128 take128
  rw [select_all_ones _ _ _ hmask]
  unfold agg128 val_main_v41 val_main_cst_8 val_main_v42 val_main_v36 val_main_v35 val_main_v34 val_main_v33 val_main_c_7
    val_main_v32 val_main_v31 val_main_c_6 val_main_v39 val_main_v38 wrapIdx
  rfl

theorem agg16_ref (x1 : IVec Cert.KernelIdeal.S2x1600000 32)
    (hmask : inRange (val_main_v3 (F := Ideal) x1) = fun _ => 1#1) (h : FVec Ideal Cert.KernelIdeal.S50000x16 .f32) :
    aggK16 (F := Ideal) (val_main_v3 (F := Ideal) x1) (val_main_v6 (F := Ideal) x1) (val_main_v29 (F := Ideal) x1) h
      = agg16 x1 h := by
  unfold aggK16 take16
  rw [select_all_ones _ _ _ hmask]
  unfold agg16 val_main_v77 val_main_cst_14 val_main_v78 val_main_v72 val_main_v71 val_main_v70 val_main_v69 val_main_c_13
    val_main_v68 val_main_v67 val_main_c_12 val_main_v75 val_main_v74 wrapIdx
  rfl

end Cert.Bridge

end
-- ==== Proof.MaskPre.lean ====
/-
  From the precondition to "every source index is a row of the table".

  The precondition is a conjunction of eight tests; the last one says of row 0 of the edge list (the sources of the
  1 600 000 edges) that every entry e, read as a signed 32-bit integer, has 0 ≤ e < 50000. The kernel's source list is
  that row followed by the self-loops 0, 1, …, 49999, and those words lie in the same interval. A word r of that
  interval is not negative, so the wrap "r < 0 ↦ r + 50000" leaves it alone, and both range tests 0 ≤ r and r ≤ 49999
  pass on it; the mask is the conjunction, over an axis of one entry, of those two tests, so it is 1 at every edge.

  The steps (namespace `Mask`): a conjunction of ones is one (`reduce_andi_ones`); an entry of a concatenation is an entry of one of its
  pieces (`concatenate_all`); one word (`word_inRange`); the self-loops (`iota_isRow`); the precondition's last
  conjunct read at one edge (`row0_isRow`).
-/
import proofs.«417181_j18451179504149_1_alg».proof.Proof.KIdx
import proofs.«417181_j18451179504149_1_alg».proof.Defs
import proofs.«417181_j18451179504149_1_alg».proof.Proof.Gen.Pre_finite_inputs
import Idealize.ShloMosaic.Lib.ReduceAll

set_option maxRecDepth 16384
noncomputable section
namespace Cert.KernelIdeal.Bridge
open Cert.KernelIdeal Cert.KernelIdeal.Gen Idealize.ShloMosaic Idealize.ShloMosaic.TcCoe Idealize.SL.Sem

namespace Mask

/-- A word is a row of the table: read signed it lies in [0, 50000). -/
def IsRow (r : BitVec 32) : Prop := 0 ≤ r.toInt ∧ r.toInt < 50000

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduction by `and`, from 1, of an array of ones is 1 at every index. -/
theorem reduce_andi_ones {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_ones x hx _

/-- A concatenation read at an index is one of its pieces read at some index. -/
theorem concatenate_mem {α : Type} (t : Shape) (a : Fin t.rank) (xs : List ((s : Shape) × (s.Idx → α)))
    (h : Shape.Concatenates (xs.map (·.1)) t a) (j : t.Idx) :
    ∃ p ∈ xs, ∃ i : p.1.Idx, concatenate t a xs h j = p.2 i := by
  unfold concatenate
  exact ⟨_, List.getElem_mem _, _, rfl⟩

/-- What holds of every entry of every piece holds of every entry of the concatenation. -/
theorem concatenate_all {α : Type} (P : α → Prop) (t : Shape) (a : Fin t.rank) (xs : List ((s : Shape) × (s.Idx → α)))
    (h : Shape.Concatenates (xs.map (·.1)) t a) (hP : ∀ p ∈ xs, ∀ i : p.1.Idx, P (p.2 i)) (j : t.Idx) :
    P (concatenate t a xs h j) := by
  obtain ⟨p, hp, i, hi⟩ := concatenate_mem t a xs h j
  rw [hi]
  exact hP p hp i

/-- The wrap leaves a row of the table alone, and both range tests pass on it. -/
theorem word_inRange (r : BitVec 32) (hr : IsRow r) :
    IntOp.andi (IntOp.cmpi .sge (Scalar.select (IntOp.cmpi .slt r 0#32) (IntOp.addi r 50000#32) r) 0#32)
      (IntOp.cmpi .sle (Scalar.select (IntOp.cmpi .slt r 0#32) (IntOp.addi r 50000#32) r) 49999#32) = 1#1 := by
  obtain ⟨h0, h1⟩ := hr
  have z0 : (0#32 : BitVec 32).toInt = 0 := by decide
  have z1 : (49999#32 : BitVec 32).toInt = 49999 := by decide
  have hc : ¬ IntOp.cmpi .slt r 0#32 = 1#1 := by rw [IntOp.cmpi_slt, z0]; omega
  have hs : Scalar.select (IntOp.cmpi .slt r 0#32) (IntOp.addi r 50000#32) r = r := if_neg hc
  rw [hs]
  exact IntOp.andi_eq_one.2 ⟨IntOp.cmpi_sge.2 (by rw [z0]; exact h0), IntOp.cmpi_sle.2 (by rw [z1]; omega)⟩

/-- An iota along an axis no longer than the table names rows of the table. -/
theorem iota_isRow {s : Shape} (d : Fin s.rank) (hs : s.size d ≤ 50000) (i : s.Idx) : IsRow (iotaInDim s 32 d i) := by
  have hlt := (i d).isLt
  have e : (iotaInDim s 32 d i).toInt = ((i d).val : Int) := by
    show (BitVec.ofNat 32 (i d).val).toInt = _
    rw [BitVec.toInt_ofNat']
    exact Int.bmod_eq_of_le (by omega) (by omega)
  unfold IsRow
  rw [e]
  omega

/-- The range mask of a list of rows of the table is all ones. -/
theorem inRange_of_isRow (row : IVec S1650000 32) (h : ∀ k, IsRow (row k)) : inRange row = fun _ => 1#1 := by
  funext k
  unfold inRange
  refine reduce_andi_ones _ _ _ _ _ rfl (fun i => ?_)
  obtain ⟨i', hi'⟩ : ∃ i', wrapIdx row i
      = Scalar.select (IntOp.cmpi .slt (row i') 0#32) (IntOp.addi (row i') 50000#32) (row i') := ⟨_, rfl⟩
  show IntOp.andi (IntOp.cmpi .sge (wrapIdx row i) 0#32) (IntOp.cmpi .sle (wrapIdx row i) 49999#32) = 1#1
  rw [hi']
  exact word_inRange _ (h i')

/-- The precondition's last conjunct, read at one edge: its source index is a row of the table. -/
theorem row0_isRow (m : (ℓ : Loc nD τ sig) → Buf (Elt Ideal) ℓ)
    (hpre : Cert.Pre_KernelIdeal (hPre_finite_inputs := Cert.Pre_finite_inputs.Gen.facts) m) (c : Dev nD) (i : S1600000.Idx) :
    IsRow (shapeCast S1600000 (extractStridedSlice S1x1600000 ![0, 0] (m ((c.tc : Thread nD τ).loc main_arg1))
      slices_S2x1600000_S1x1600000_0_0) shapeCasts_S1x1600000_S1600000 i) := by
  have e := congrFun (hpre c) (fun a => a.elim0)
  dsimp only [Cert.Pre_finite_inputs.fn, Cert.Pre_finite_inputs.fn_part1, Cert.Pre_finite_inputs.fn_part2] at e
  have e2 := (IntOp.andi_eq_one.1 e).2
  haveI : Subsingleton Cert.Pre_finite_inputs.S_.Idx := ⟨fun a b => funext fun d => d.elim0⟩
  have e3 := Host.reduce_andi_all _ _ _ _ _ e2 i
  obtain ⟨g0, g1⟩ := IntOp.andi_eq_one.1 e3
  have z0 : (0#32 : BitVec 32).toInt = 0 := by decide
  have z1 : (50000#32 : BitVec 32).toInt = 50000 := by decide
  refine ⟨?_, ?_⟩
  · have h : (0#32 : BitVec 32).toInt ≤ _ := IntOp.cmpi_sge.1 g0
    rw [z0] at h
    exact h
  · have h : _ < (50000#32 : BitVec 32).toInt := IntOp.cmpi_slt.1 g1
    rw [z1] at h
    exact h

end Mask

/-- Under the precondition every source index, the self-loops included, is a row of the table. -/
theorem inRange_of_pre (m : (ℓ : Loc nD τ sig) → Buf (Elt Ideal) ℓ)
    (hpre : Cert.Pre_KernelIdeal (hPre_finite_inputs := Cert.Pre_finite_inputs.Gen.facts) m) (c : Dev nD) :
    inRange (edgeRow0 (m ((c.tc : Thread nD τ).loc main_arg1))) = fun _ => 1#1 := by
  refine Mask.inRange_of_isRow _ (fun k => ?_)
  unfold edgeRow0
  refine Mask.concatenate_all Mask.IsRow _ _ _ _ (fun p hp i => ?_) k
  rcases List.mem_cons.1 hp with rfl | hp
  · exact Mask.row0_isRow m hpre c i
  · rcases List.mem_cons.1 hp with rfl | hp
    · exact Mask.iota_isRow 0 (by decide) i
    · exact absurd hp (List.not_mem_nil)

end Cert.KernelIdeal.Bridge
end
-- ==== Proof.lean ====
/-
  A three-layer graph-convolution network on 50000 nodes (128 → 128 → 128 → 16 features) over an edge list of
  1 600 000 edges with self-loops added: the tiled kernel program against its plain reference, over the
  extended reals.

  Both programs compute, per layer, a dense map, a neighbourhood aggregation (gather the source rows, scale by
  the symmetric degree normalisation, add at the targets), a bias and the rectifier. The kernel program does
  the dense maps in four tiled calls (the first a plain matrix product; the second and third "bias,
  rectifier, next matrix product" fused; the last "bias, rectifier"), each over ten row blocks of 5000, and
  leaves index lists, normalisation and aggregation to the host, exactly as the reference does. At the
  extended reals the bfloat16 roundings in front of the matrix products are the identity and a matrix
  product into a zero accumulator is the plain sum, so both programs are the SAME composition (Spec's
  `net`) of dense maps, bias-and-rectifier steps and aggregations; no algebraic law is needed, and
  finiteness of the inputs is never used.

  The one difference: the kernel program fetches a source row the "fill" way (a row of one not-a-number word
  where the wrapped index is not a row of the table), the reference by a clamping gather. The statement
  therefore carries the evident-domain precondition that every source index lies in [0, 50000); under it
  the fill never happens (MaskPre), the two aggregations are one function (KRBridge), and the kernel
  program's result (KValue, over the launch of KRun) is the reference's (RefStages, over its run).
  The idealization changed no operation, so its ledger is empty.
-/
import proofs.«417181_j18451179504149_1_alg».proof.Defs
import proofs.«417181_j18451179504149_1_alg».proof.Proof.Gen.Kernel
import proofs.«417181_j18451179504149_1_alg».proof.Proof.Gen.Kernel.Skeleton
import proofs.«417181_j18451179504149_1_alg».proof.Proof.Gen.Kernel.Launch
import proofs.«417181_j18451179504149_1_alg».proof.Proof.Gen.Kernel.Points
import proofs.«417181_j18451179504149_1_alg».proof.Proof.Gen.Kernel.Frame
import proofs.«417181_j18451179504149_1_alg».proof.Proof.Gen.KernelIdeal
import proofs.«417181_j18451179504149_1_alg».proof.Proof.Gen.KernelIdeal.Skeleton
import proofs.«417181_j18451179504149_1_alg».proof.Proof.Gen.KernelIdeal.Launch
import proofs.«417181_j18451179504149_1_alg».proof.Proof.Gen.KernelIdeal.Points
import proofs.«417181_j18451179504149_1_alg».proof.Proof.Gen.KernelIdeal.Frame
import proofs.«417181_j18451179504149_1_alg».proof.Proof.Gen.ReferenceIdeal
import proofs.«417181_j18451179504149_1_alg».proof.Proof.Gen.Pre_finite_inputs
import proofs.«417181_j18451179504149_1_alg».proof.Proof.RefRun
import proofs.«417181_j18451179504149_1_alg».proof.Proof.RefRead
import proofs.«417181_j18451179504149_1_alg».proof.Proof.RefStages
import proofs.«417181_j18451179504149_1_alg».proof.Proof.KRun
import proofs.«417181_j18451179504149_1_alg».proof.Proof.KValue
import proofs.«417181_j18451179504149_1_alg».proof.Proof.KRBridge
import proofs.«417181_j18451179504149_1_alg».proof.Proof.MaskPre
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a host program: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation was rewritten. -/
theorem preserves : Cert.preserves_Kernel_KernelIdeal := trivial

/-- Both programs end with the three-layer network of the arguments over the reference's aggregation. -/
theorem algebraic : Cert.algebraic_KernelIdeal_ReferenceIdeal := by
  intro m ρ m' ρ' hpre hagree
  refine ⟨fun c => Cert.Gcn.net (Cert.ReferenceIdeal.Bridge.agg128 (m ((c.tc : Thread Cert.KernelIdeal.nD Cert.KernelIdeal.τ).loc Cert.KernelIdeal.main_arg1))) (Cert.ReferenceIdeal.Bridge.agg16 (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · -- the kernel program: the launch, then the value chain, then the aggregations identified under the mask
    refine (θ_run Cert.KernelIdeal.defs _ _).mono (fun r h c => ⟨(h c).1.trans ?_, (h c).2⟩)
      (Cert.KernelIdeal.Gen.run_result (F := Ideal) m ρ)
    have hmask := Cert.KernelIdeal.Bridge.inRange_of_pre m hpre c
    rw [Cert.Bridge.edgeRow0_ref (F := Ideal)] at hmask
    rw [Cert.KernelIdeal.Bridge.result_net m ρ c, Cert.Bridge.W3_v3_ref m ρ c, Cert.Bridge.W3_v6_ref m ρ c,
      Cert.Bridge.W3_v29_ref m ρ c,
      show Cert.KernelIdeal.Bridge.aggK128 (F := Ideal) _ _ _ = Cert.ReferenceIdeal.Bridge.agg128 _ from
        funext (Cert.Bridge.agg128_ref _ hmask),
      show Cert.KernelIdeal.Bridge.aggK16 (F := Ideal) _ _ _ = Cert.ReferenceIdeal.Bridge.agg16 _ from
        funext (Cert.Bridge.agg16_ref _ hmask)]
  · -- the reference: its run, its last stage, the stages as the network, the arguments' agreement
    refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v83_eq, Cert.ReferenceIdeal.Bridge.ref_result, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
